-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v61)) (v1 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_v77) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_arg7 : FVec F S128x64 .f32) (main_arg8 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x800000 32) (main_arg2 : IVec S100000 32) (main_arg3 : FVec F S128x128 .f32) (main_arg4 : FVec F S128 .f32) (main_arg5 : FVec F S128x64 .f32) (main_arg6 : FVec F S64 .f32) (main_arg7 : FVec F S128x64 .f32) (main_arg8 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_arg7 main_arg8 main_v13 main_v16
-- ==== Kernel.lean ====
abbrev S100000x128 : Shape := ⟨2, ![100000, 128]⟩
abbrev S2x800000 : Shape := ⟨2, ![2, 800000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S5000x128 : Shape := ⟨2, ![5000, 128]⟩
abbrev S900000x128 : Shape := ⟨2, ![900000, 128]⟩
abbrev S1x128 : Shape := ⟨2, ![1, 128]⟩
abbrev S100000x64 : Shape := ⟨2, ![100000, 64]⟩
abbrev S5000x64 : Shape := ⟨2, ![5000, 64]⟩
abbrev S900000x64 : Shape := ⟨2, ![900000, 64]⟩
abbrev S1x64 : Shape := ⟨2, ![1, 64]⟩

abbrev nBuf : Space → Nat
  | .hbm => 106
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S100000, .i32⟩
  | .hbm, ⟨10, _⟩ => ⟨S1x800000, .i32⟩
  | .hbm, ⟨11, _⟩ => ⟨S800000, .i32⟩
  | .hbm, ⟨12, _⟩ => ⟨S900000, .i32⟩
  | .hbm, ⟨13, _⟩ => ⟨S1x800000, .i32⟩
  | .hbm, ⟨14, _⟩ => ⟨S800000, .i32⟩
  | .hbm, ⟨15, _⟩ => ⟨S900000, .i32⟩
  | .hbm, ⟨16, _⟩ => ⟨S_, .f32⟩
  | .hbm, ⟨17, _⟩ => ⟨S900000, .f32⟩
  | .hbm, ⟨18, _⟩ => ⟨S_, .f32⟩
  | .hbm, ⟨19, _⟩ => ⟨S100000, .f32⟩
  | .hbm, ⟨20, _⟩ => ⟨S900000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S900000, .i32⟩
  | .hbm, ⟨32, _⟩ => ⟨S900000, .i1⟩
  | .hbm, ⟨33, _⟩ => ⟨S_, .i32⟩
  | .hbm, ⟨34, _⟩ => ⟨S900000, .i32⟩
  | .hbm, ⟨35, _⟩ => ⟨S900000, .i32⟩
  | .hbm, ⟨36, _⟩ => ⟨S900000, .i32⟩
  | .hbm, ⟨37, _⟩ => ⟨S900000x1, .i32⟩
  | .hbm, ⟨38, _⟩ => ⟨S900000, .f32⟩
  | .hbm, ⟨39, _⟩ => ⟨S_, .i32⟩
  | .hbm, ⟨40, _⟩ => ⟨S900000, .i32⟩
  | .hbm, ⟨41, _⟩ => ⟨S900000, .i1⟩
  | .hbm, ⟨42, _⟩ => ⟨S_, .i32⟩
  | .hbm, ⟨43, _⟩ => ⟨S900000, .i32⟩
  | .hbm, ⟨44, _⟩ => ⟨S900000, .i32⟩
  | .hbm, ⟨45, _⟩ => ⟨S900000, .i32⟩
  | .hbm, ⟨46, _⟩ => ⟨S900000x1, .i32⟩
  | .hbm, ⟨47, _⟩ => ⟨S900000, .f32⟩
  | .hbm, ⟨48, _⟩ => ⟨S900000, .f32⟩
  | .hbm, ⟨49, _⟩ => ⟨S100000x128, .f32⟩
  | .hbm, ⟨50, _⟩ => ⟨S_, .i32⟩
  | .hbm, ⟨51, _⟩ => ⟨S900000, .i32⟩
  | .hbm, ⟨52, _⟩ => ⟨S900000, .i1⟩
  | .hbm, ⟨53, _⟩ => ⟨S_, .i32⟩
  | .hbm, ⟨54, _⟩ => ⟨S900000, .i32⟩
  | .hbm, ⟨55, _⟩ => ⟨S900000, .i32⟩
  | .hbm, ⟨56, _⟩ => ⟨S900000, .i32⟩
  | .hbm, ⟨57, _⟩ => ⟨S900000x1, .i32⟩
  | .hbm, ⟨58, _⟩ => ⟨S900000x128, .f32⟩
  | .hbm, ⟨59, _⟩ => ⟨S900000x1, .f32⟩
  | .hbm, ⟨60, _⟩ => ⟨S900000x128, .f32⟩
  | .hbm, ⟨61, _⟩ => ⟨S900000x128, .f32⟩
  | .hbm, ⟨62, _⟩ => ⟨S_, .f32⟩
  | .hbm, ⟨63, _⟩ => ⟨S100000x128, .f32⟩
  | .hbm, ⟨64, _⟩ => ⟨S900000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x64, .f32⟩
  | .hbm, ⟨69, _⟩ => ⟨S_, .i32⟩
  | .hbm, ⟨70, _⟩ => ⟨S900000, .i32⟩
  | .hbm, ⟨71, _⟩ => ⟨S900000, .i1⟩
  | .hbm, ⟨72, _⟩ => ⟨S_, .i32⟩
  | .hbm, ⟨73, _⟩ => ⟨S900000, .i32⟩
  | .hbm, ⟨74, _⟩ => ⟨S900000, .i32⟩
  | .hbm, ⟨75, _⟩ => ⟨S900000, .i32⟩
  | .hbm, ⟨76, _⟩ => ⟨S900000x1, .i32⟩
  | .hbm, ⟨77, _⟩ => ⟨S900000x64, .f32⟩
  | .hbm, ⟨78, _⟩ => ⟨S900000x1, .f32⟩
  | .hbm, ⟨79, _⟩ => ⟨S900000x64, .f32⟩
  | .hbm, ⟨80, _⟩ => ⟨S900000x64, .f32⟩
  | .hbm, ⟨81, _⟩ => ⟨S_, .f32⟩
  | .hbm, ⟨82, _⟩ => ⟨S100000x64, .f32⟩
  | .hbm, ⟨83, _⟩ => ⟨S900000x1, .i32⟩
  | .hbm, ⟨84, _⟩ => ⟨S100000x64, .f32⟩
  | .hbm, ⟨85, _⟩ => ⟨S1x64, .f32⟩
  | .hbm, ⟨86, _⟩ => ⟨S100000x64, .f32⟩
  | .hbm, ⟨87, _⟩ => ⟨S100000x64, .f32⟩
  | .hbm, ⟨88, _⟩ => ⟨S_, .i32⟩
  | .hbm, ⟨89, _⟩ => ⟨S900000, .i32⟩
  | .hbm, ⟨90, _⟩ => ⟨S900000, .i1⟩
  | .hbm, ⟨91, _⟩ => ⟨S_, .i32⟩
  | .hbm, ⟨92, _⟩ => ⟨S900000, .i32⟩
  | .hbm, ⟨93, _⟩ => ⟨S900000, .i32⟩
  | .hbm, ⟨94, _⟩ => ⟨S900000, .i32⟩
  | .hbm, ⟨95, _⟩ => ⟨S900000x1, .i32⟩
  | .hbm, ⟨96, _⟩ => ⟨S900000x64, .f32⟩
  | .hbm, ⟨97, _⟩ => ⟨S900000x1, .f32⟩
  | .hbm, ⟨98, _⟩ => ⟨S900000x64, .f32⟩
  | .hbm, ⟨99, _⟩ => ⟨S900000x64, .f32⟩
  | .hbm, ⟨100, _⟩ => ⟨S_, .f32⟩
  | .hbm, ⟨101, _⟩ => ⟨S100000x64, .f32⟩
  | .hbm, ⟨102, _⟩ => ⟨S900000x1, .i32⟩
  | .hbm, ⟨103, _⟩ => ⟨S100000x64, .f32⟩
  | .hbm, ⟨104, _⟩ => ⟨S1x64, .f32⟩
  | .hbm, ⟨105, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_c_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_c_12 : Ref sig .tc := ⟨.hbm, 88, rfl⟩
abbrev main_v63 : Ref sig .tc := ⟨.hbm, 89, rfl⟩
abbrev main_v64 : Ref sig .tc := ⟨.hbm, 90, rfl⟩
abbrev main_c_13 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_14 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S900000x1_S900000x128_0_1 : S900000x1.BroadcastsInDim S900000x128 (![0, 1] : Fin 2 → Fin S900000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S900000x1_S900000x64_0_1 : S900000x1.BroadcastsInDim S900000x64 (![0, 1] : Fin 2 → Fin S900000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S5000x128_S128x128_S5000x128_1_0_0_1_n_n_wf : DotDims.WF S5000x128 S128x128 S5000x128 [1] [0] [0] [1] [] []
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  dot_S5000x128_S128x64_S5000x64_1_0_0_1_n_n_wf : DotDims.WF S5000x128 S128x64 S5000x64 [1] [0] [0] [1] [] []
  gather_S100000x64_S900000x1_S900000x64_1_0_n_n_0_1_164_wf : GatherDims.WF S100000x64 S900000x1 S900000x64 [1] [0] [] [0] [] 1 ![1, 64]
  scatter_S100000x64_S900000x1_S900000x64_1_0_0_1_wf : ScatterDims.WF S100000x64 S900000x1 S900000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S100000x64.size a
  hwx5_2 : ∀ i : grid5.Coords, EltTy.bits .f32 = 32 ∨ (Rect.block (s := S100000x64) S5000x64.size (cc5_transform_2 i) (hinb5_2 i)).WholeWords (EltTy.packing .f32)

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S900000x1_S900000x64_1_0_n_n_0_1_164 : GatherDims S100000x64 S900000x1 S900000x64 where
  offsetDims := [1]
  collapsedSliceDims := [0]
  operandBatchingDims := []
  startIndicesBatchingDims := []
  startIndexMap := [0]
  indexVectorDim := 1
  sliceSizes := ![1, 64]
  wf := gather_S100000x64_S900000x1_S900000x64_1_0_n_n_0_1_164_wf
def scatter_S100000x64_S900000x1_S900000x64_1_0_0_1 : ScatterDims S100000x64 S900000x1 S900000x64 where
  updateWindowDims := [1]
  insertedWindowDims := [0]
  scatterDimsToOperandDims := [0]
  indexVectorDim := 1
  wf := scatter_S100000x64_S900000x1_S900000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v45) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x800000 : Shape := ⟨2, ![2, 800000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S900000x128 : Shape := ⟨2, ![900000, 128]⟩
abbrev S1x128 : Shape := ⟨2, ![1, 128]⟩
abbrev S100000x64 : Shape := ⟨2, ![100000, 64]⟩
abbrev S900000x64 : Shape := ⟨2, ![900000, 64]⟩
abbrev S1x64 : Shape := ⟨2, ![1, 64]⟩

abbrev nBuf : Space → Nat
  | .hbm => 112
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S100000, .i32⟩
  | .hbm, ⟨10, _⟩ => ⟨S1x800000, .i32⟩
  | .hbm, ⟨11, _⟩ => ⟨S800000, .i32⟩
  | .hbm, ⟨12, _⟩ => ⟨S900000, .i32⟩
  | .hbm, ⟨13, _⟩ => ⟨S1x800000, .i32⟩
  | .hbm, ⟨14, _⟩ => ⟨S800000, .i32⟩
  | .hbm, ⟨15, _⟩ => ⟨S900000, .i32⟩
  | .hbm, ⟨16, _⟩ => ⟨S_, .f32⟩
  | .hbm, ⟨17, _⟩ => ⟨S900000, .f32⟩
  | .hbm, ⟨18, _⟩ => ⟨S_, .f32⟩
  | .hbm, ⟨19, _⟩ => ⟨S100000, .f32⟩
  | .hbm, ⟨20, _⟩ => ⟨S900000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S900000, .i32⟩
  | .hbm, ⟨32, _⟩ => ⟨S900000, .i1⟩
  | .hbm, ⟨33, _⟩ => ⟨S_, .i32⟩
  | .hbm, ⟨34, _⟩ => ⟨S900000, .i32⟩
  | .hbm, ⟨35, _⟩ => ⟨S900000, .i32⟩
  | .hbm, ⟨36, _⟩ => ⟨S900000, .i32⟩
  | .hbm, ⟨37, _⟩ => ⟨S900000x1, .i32⟩
  | .hbm, ⟨38, _⟩ => ⟨S900000, .f32⟩
  | .hbm, ⟨39, _⟩ => ⟨S_, .i32⟩
  | .hbm, ⟨40, _⟩ => ⟨S900000, .i32⟩
  | .hbm, ⟨41, _⟩ => ⟨S900000, .i1⟩
  | .hbm, ⟨42, _⟩ => ⟨S_, .i32⟩
  | .hbm, ⟨43, _⟩ => ⟨S900000, .i32⟩
  | .hbm, ⟨44, _⟩ => ⟨S900000, .i32⟩
  | .hbm, ⟨45, _⟩ => ⟨S900000, .i32⟩
  | .hbm, ⟨46, _⟩ => ⟨S900000x1, .i32⟩
  | .hbm, ⟨47, _⟩ => ⟨S900000, .f32⟩
  | .hbm, ⟨48, _⟩ => ⟨S900000, .f32⟩
  | .hbm, ⟨49, _⟩ => ⟨S100000x128, .f32⟩
  | .hbm, ⟨50, _⟩ => ⟨S_, .i32⟩
  | .hbm, ⟨51, _⟩ => ⟨S900000, .i32⟩
  | .hbm, ⟨52, _⟩ => ⟨S900000, .i1⟩
  | .hbm, ⟨53, _⟩ => ⟨S_, .i32⟩
  | .hbm, ⟨54, _⟩ => ⟨S900000, .i32⟩
  | .hbm, ⟨55, _⟩ => ⟨S900000, .i32⟩
  | .hbm, ⟨56, _⟩ => ⟨S900000, .i32⟩
  | .hbm, ⟨57, _⟩ => ⟨S900000x1, .i32⟩
  | .hbm, ⟨58, _⟩ => ⟨S900000x128, .f32⟩
  | .hbm, ⟨59, _⟩ => ⟨S900000x1, .f32⟩
  | .hbm, ⟨60, _⟩ => ⟨S900000x128, .f32⟩
  | .hbm, ⟨61, _⟩ => ⟨S900000x128, .f32⟩
  | .hbm, ⟨62, _⟩ => ⟨S_, .f32⟩
  | .hbm, ⟨63, _⟩ => ⟨S100000x128, .f32⟩
  | .hbm, ⟨64, _⟩ => ⟨S900000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S100000x64, .f32⟩
  | .hbm, ⟨73, _⟩ => ⟨S_, .i32⟩
  | .hbm, ⟨74, _⟩ => ⟨S900000, .i32⟩
  | .hbm, ⟨75, _⟩ => ⟨S900000, .i1⟩
  | .hbm, ⟨76, _⟩ => ⟨S_, .i32⟩
  | .hbm, ⟨77, _⟩ => ⟨S900000, .i32⟩
  | .hbm, ⟨78, _⟩ => ⟨S900000, .i32⟩
  | .hbm, ⟨79, _⟩ => ⟨S900000, .i32⟩
  | .hbm, ⟨80, _⟩ => ⟨S900000x1, .i32⟩
  | .hbm, ⟨81, _⟩ => ⟨S900000x64, .f32⟩
  | .hbm, ⟨82, _⟩ => ⟨S900000x1, .f32⟩
  | .hbm, ⟨83, _⟩ => ⟨S900000x64, .f32⟩
  | .hbm, ⟨84, _⟩ => ⟨S900000x64, .f32⟩
  | .hbm, ⟨85, _⟩ => ⟨S_, .f32⟩
  | .hbm, ⟨86, _⟩ => ⟨S100000x64, .f32⟩
  | .hbm, ⟨87, _⟩ => ⟨S900000x1, .i32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S100000x64, .f32⟩
  | .hbm, ⟨92, _⟩ => ⟨S100000x64, .f32⟩
  | .hbm, ⟨93, _⟩ => ⟨S_, .i32⟩
  | .hbm, ⟨94, _⟩ => ⟨S900000, .i32⟩
  | .hbm, ⟨95, _⟩ => ⟨S900000, .i1⟩
  | .hbm, ⟨96, _⟩ => ⟨S_, .i32⟩
  | .hbm, ⟨97, _⟩ => ⟨S900000, .i32⟩
  | .hbm, ⟨98, _⟩ => ⟨S900000, .i32⟩
  | .hbm, ⟨99, _⟩ => ⟨S900000, .i32⟩
  | .hbm, ⟨100, _⟩ => ⟨S900000x1, .i32⟩
  | .hbm, ⟨101, _⟩ => ⟨S900000x64, .f32⟩
  | .hbm, ⟨102, _⟩ => ⟨S900000x1, .f32⟩
  | .hbm, ⟨103, _⟩ => ⟨S900000x64, .f32⟩
  | .hbm, ⟨104, _⟩ => ⟨S900000x64, .f32⟩
  | .hbm, ⟨105, _⟩ => ⟨S_, .f32⟩
  | .hbm, ⟨106, _⟩ => ⟨S100000x64, .f32⟩
  | .hbm, ⟨107, _⟩ => ⟨S900000x1, .i32⟩
  | .hbm, ⟨108, _⟩ => ⟨S100000x64, .f32⟩
  | .hbm, ⟨109, _⟩ => ⟨S1x64, .f32⟩
  | .hbm, ⟨110, _⟩ => ⟨S100000x64, .f32⟩
  | .hbm, ⟨111, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_12 : Ref sig .tc := ⟨.hbm, 93, rfl⟩
abbrev main_v66 : Ref sig .tc := ⟨.hbm, 94, rfl⟩
abbrev main_v67 : Ref sig .tc := ⟨.hbm, 95, rfl⟩
abbrev main_c_13 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_14 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x128_0_1 : S900000x1.BroadcastsInDim S900000x128 (![0, 1] : Fin 2 → Fin S900000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S900000x1_S900000x64_0_1 : S900000x1.BroadcastsInDim S900000x64 (![0, 1] : Fin 2 → Fin S900000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S100000x128_S128x128_S100000x128_1_0_0_1_n_n_wf : DotDims.WF S100000x128 S128x128 S100000x128 [1] [0] [0] [1] [] []
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  dot_S100000x128_S128x64_S100000x64_1_0_0_1_n_n_wf : DotDims.WF S100000x128 S128x64 S100000x64 [1] [0] [0] [1] [] []
  gather_S100000x64_S900000x1_S900000x64_1_0_n_n_0_1_164_wf : GatherDims.WF S100000x64 S900000x1 S900000x64 [1] [0] [] [0] [] 1 ![1, 64]
  scatter_S100000x64_S900000x1_S900000x64_1_0_0_1_wf : ScatterDims.WF S100000x64 S900000x1 S900000x64 [1] [0] [0] 1

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S900000x1_S900000x64_1_0_n_n_0_1_164 : GatherDims S100000x64 S900000x1 S900000x64 where
  offsetDims := [1]
  collapsedSliceDims := [0]
  operandBatchingDims := []
  startIndicesBatchingDims := []
  startIndexMap := [0]
  indexVectorDim := 1
  sliceSizes := ![1, 64]
  wf := gather_S100000x64_S900000x1_S900000x64_1_0_n_n_0_1_164_wf
def scatter_S100000x64_S900000x1_S900000x64_1_0_0_1 : ScatterDims S100000x64 S900000x1 S900000x64 where
  updateWindowDims := [1]
  insertedWindowDims := [0]
  scatterDimsToOperandDims := [0]
  indexVectorDim := 1
  wf := scatter_S100000x64_S900000x1_S900000x64_1_0_0_1_wf

class Facts : Prop extends Facts₀ where

variable [Facts]
-- ==== Proof.LibPlainDot.lean ====
/-
  A plain matrix product `[M, K] × [K, N] → [M, N]` — the left operand's columns contracted with the right operand's
  rows, no batch axis — read at the output entry `(p, q)` at the ideal values: the sum over `k : Fin K` of
  `l (p, k) * r (k, q)`. The device's `matmul` into the zero accumulator and the host's `dot_general` are both
  this sum, whatever record spells the dimension numbers, as long as it is the plain one (`hd`, which a printed
  record meets by `rfl`); and nothing depends on the sizes, so one statement serves a block of rows and the
  whole array alike.
  Beside it: a sum over `Fin (a + b)` of a function that reads its first `a` positions from one family and the
  rest from another is the two families' sums — what a product with two column blocks joined side by side is.
-/
import Idealize.ShloMosaic.Lib.ValueIdx
import Idealize.ShloMosaic.PureOps.Ideal.Laws
import Mathlib.Algebra.BigOperators.Fin

namespace Cert.PlainDot

open Idealize.ShloMosaic Idealize.ShloMosaic.ValueIdx

variable {M K N : ℕ}

/-- The left operand index of the plain product at output `(p, q)` and contraction position `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ =>
    show ((DotDims.plain M K N).lhsIdx (ix2 p q) _ 0).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := 1) rfl (ix2 p q) _).trans hk

/-- The right operand index is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of the plain product, re-indexed by the one contracted coordinate. -/
theorem plain_sum {β : Type*} [AddCommMonoid β] (f : (⟨2, ![M, K]⟩ : Shape).Idx → (⟨2, ![K, N]⟩ : Shape).Idx → β)
    (p : Fin M) (q : Fin N) :
    ∑ k : (DotDims.plain M K N).contr.Idx,
        f ((DotDims.plain M K N).lhsIdx (ix2 p q) k) ((DotDims.plain M K N).rhsIdx (ix2 p q) k)
      = ∑ k : Fin K, f (ix2 p k) (ix2 k q) := by
  rw [← Equiv.sum_comp (contrEquiv1 (DotDims.plain M K N) K rfl rfl).symm]
  refine Finset.sum_congr rfl fun k _ => ?_
  rw [plain_lhsIdx, plain_rhsIdx]

variable {φ₁ φ₂ : FTy}

/-- The device's matrix product into the zero accumulator, at `(p, q)`. -/
theorem matmul_zero_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    matmul d prec l r (constant ⟨2, ![M, N]⟩ .f32 0x00000000#32) (ix2 p q) = ∑ k : Fin K, l (ix2 p k) * r (ix2 k q) := by
  subst hd
  simp only [matmul]
  rw [Ideal.matmul_constant_zero_apply]
  exact plain_sum (fun a b => l a * r b) p q

/-- The host's `dot_general`, at `(p, q)`. -/
theorem dotGeneral_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum (fun a b => l a * r b) p q

/-- A sum over `Fin (a + b)` of a function given piecewise — below `a` by `f`, from `a` on by `g` — is the sum of
    `f` plus the sum of `g`. -/
theorem sum_two_blocks {β : Type*} [AddCommMonoid β] {a b n : ℕ} (hn : n = a + b) (F : Fin n → β) (f : Fin a → β) (g : Fin b → β)
    (hf : ∀ k : Fin a, F ⟨k.val, by have := k.isLt; omega⟩ = f k)
    (hg : ∀ k : Fin b, F ⟨a + k.val, by have := k.isLt; omega⟩ = g k) :
    ∑ k : Fin n, F k = ∑ k : Fin a, f k + ∑ k : Fin b, g k := by
  subst hn
  rw [Fin.sum_univ_add]
  refine congrArg₂ (· + ·) (Finset.sum_congr rfl fun k _ => ?_) (Finset.sum_congr rfl fun k _ => ?_)
  · exact hf k
  · exact hg k

end Cert.PlainDot
-- ==== Proof.BlockMath.lean ====
/-
  The arithmetic of one block, at the ideal values, over literal-free sizes.

  * A device product of a row block with a weight matrix whose two operands are first rounded to a narrower
    format is, at the ideal values where rounding is the identity, the plain sum over the contracted axis.
  * A row block plus a bias row broadcast down the rows reads, at `(p, q)`, the block's entry plus the bias
    at column `q`; the host's broadcast of the same `[1, C]` row to `[N, C]` reads the same entry.
  * Reshaping a length-`C` vector to `[1, C]` and broadcasting it into `[1, C]` along axis 1 are the same array.
-/
import Idealize.ShloMosaic.Lib.ValueIdx
import Idealize.ShloMosaic.Lib.Pipeline.Value
import Idealize.ShloMosaic.PureOps.Ideal.Laws
import proofs.«110385_j87505663689257_1_alg».proof.Proof.LibPlainDot

noncomputable section

namespace Cert.BlockMath

open Idealize.ShloMosaic Idealize.ShloMosaic.ValueIdx

variable {M K N C : ℕ}

/-- The product of two operands rounded on the way in, into the zero accumulator, at `(p, q)`: the sum over
    `k` of `x (p, k) * w (k, q)`. -/
theorem mm_rounded_apply (d : DotDims ⟨2, ![M, K]⟩ ⟨2, ![K, N]⟩ ⟨2, ![M, N]⟩) (hd : d = DotDims.plain M K N)
    (x : FVec Ideal ⟨2, ![M, K]⟩ .f32) (w : FVec Ideal ⟨2, ![K, N]⟩ .f32)
    (hx : FTy.bf16.bits < FTy.f32.bits) (hw : FTy.bf16.bits < FTy.f32.bits) (p : Fin M) (q : Fin N) :
    matmul d none (truncf .bf16 x hx) (truncf .bf16 w hw) (constant ⟨2, ![M, N]⟩ .f32 0x00000000#32) (ix2 p q)
      = ∑ k : Fin K, x (ix2 p k) * w (ix2 k q) :=
  Cert.PlainDot.matmul_zero_apply d hd none (truncf .bf16 x hx) (truncf .bf16 w hw) p q

/-- A `[1, C]` row broadcast down `M` rows, at `(p, q)`, is the row at column `q`. -/
theorem bcastRows_apply {α : Type} (hC : C ≠ 1) (b : (⟨2, ![1, C]⟩ : Shape).Idx → α)
    (h : (⟨2, ![1, C]⟩ : Shape).Broadcasts ⟨2, ![M, C]⟩) (p : Fin M) (q : Fin C) :
    broadcastTo ⟨2, ![M, C]⟩ b h (ix2 p q) = b (ix2 (0 : Fin 1) q) := by
  refine broadcastTo_apply b h (ix2 p q) (ix2 (0 : Fin 1) q) fun a => ?_
  match a with
  | ⟨0, _⟩ => show (0 : ℕ) = if (1 : ℕ) = 1 then 0 else _; rw [if_pos rfl]
  | ⟨1, _⟩ => show q.val = if C = 1 then 0 else q.val; rw [if_neg hC]

/-- The host's broadcast of a `[1, C]` row to `[N, C]` along both axes, at `(p, q)`, is the row at column `q`. -/
theorem bcastInDimRows_apply {α : Type} (hC : C ≠ 1) (b : (⟨2, ![1, C]⟩ : Shape).Idx → α)
    (h : (⟨2, ![1, C]⟩ : Shape).BroadcastsInDim ⟨2, ![M, C]⟩ (![0, 1] : Fin 2 → Fin 2)) (p : Fin M) (q : Fin C) :
    broadcastInDim ⟨2, ![M, C]⟩ ![0, 1] h b (ix2 p q) = b (ix2 (0 : Fin 1) q) := by
  refine broadcastInDim_apply _ h b (ix2 p q) (ix2 (0 : Fin 1) q) fun a => ?_
  match a with
  | ⟨0, _⟩ => show (0 : ℕ) = if (1 : ℕ) = 1 then 0 else _; rw [if_pos rfl]
  | ⟨1, _⟩ => show q.val = if C = 1 then 0 else q.val; rw [if_neg hC]

/-- The host's broadcast of a scalar array to any shape reads the scalar everywhere. -/
theorem bcastInDimScalar_apply {α : Type} {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 fun a => a.elim0

/-- A length-`C` vector reshaped to `[1, C]` is that vector broadcast into `[1, C]` along axis 1: both read the
    vector at the column. -/
theorem reshapeRow_eq_bcastInDim (hC : C ≠ 1) {α : Type} (b : (⟨1, ![C]⟩ : Shape).Idx → α)
    (hs : (⟨1, ![C]⟩ : Shape).ShapeCasts ⟨2, ![1, C]⟩)
    (hb : (⟨1, ![C]⟩ : Shape).BroadcastsInDim ⟨2, ![1, C]⟩ (![1] : Fin 1 → Fin 2)) :
    shapeCast ⟨2, ![1, C]⟩ b hs = broadcastInDim ⟨2, ![1, C]⟩ ![1] hb b := by
  funext j
  obtain ⟨z, q, rfl⟩ : ∃ (z : Fin 1) (q : Fin C), j = ix2 z q := ⟨j 0, j 1, eq_ix2 j⟩
  have hz : z.val = 0 := by have := z.isLt; omega
  rw [shapeCast_apply b hs (ix2 z q) (ix1 q) (by
        rw [Shape.rowMajor_val_one, Shape.rowMajor_val_two]
        show q.val = z.val * C + q.val
        rw [hz]; omega),
      broadcastInDim_apply _ hb b (ix2 z q) (ix1 q) (fun a => by
        match a with
        | ⟨0, _⟩ => show q.val = if C = 1 then 0 else q.val; rw [if_neg hC])]

end Cert.BlockMath

end
-- ==== Proof.Region0.lean ====
/-
  Region 0 of the kernel's program: `x @ W1`, twenty row blocks of 5000 rows.

  At grid point `t` the body loads rows `5000 t … 5000 t + 4999` of the node features (window 0) and the whole
  128 × 128 weight (window 1), multiplies them on the matrix unit into a zero accumulator, and stores the
  5000 × 128 product, which the pipeline writes back as rows `5000 t …` of the result (window 2). At the ideal
  values the product's entry `(p, q)` is `∑ k, x (5000 t + p, k) * w (k, q)`: entry `(5000 t + p, q)` of the
  whole product `x · w`. The twenty blocks tile the 100000 rows, so after the region the result array IS the
  whole product, for any contents `V` the region is entered with.
-/
import proofs.«110385_j87505663689257_1_alg».proof.Proof.Gen.KernelIdeal.Frame
import proofs.«110385_j87505663689257_1_alg».proof.Proof.Gen.ReferenceIdeal
import proofs.«110385_j87505663689257_1_alg».proof.Proof.BlockMath
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The left operand as the region finds it: the whole 100000 × 128 array. -/
abbrev lhs (c : Dev nD) : FVec Ideal ⟨2, ![100000, 128]⟩ .f32 := V c main_arg0
/-- The right operand as the region finds it: the whole 128 × 128 weight. -/
abbrev rhs (c : Dev nD) : FVec Ideal ⟨2, ![128, 128]⟩ .f32 := V c main_arg3

/-- The whole product, as the host's contraction of the two arrays. -/
abbrev whole (c : Dev nD) : FVec Ideal ⟨2, ![100000, 128]⟩ .f32 :=
  Host.dotGeneral Cert.ReferenceIdeal.dot_S100000x128_S128x128_S100000x128_1_0_0_1_n_n none (lhs V c) (rhs V c)

/-- The body's stored value at `(p, q)`: the sum over `k` of the loaded blocks' entries. -/
theorem pay_apply (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  exact Cert.BlockMath.mm_rounded_apply _ rfl x0 x1 _ _ p q

/-- The printed index maps over the grid: the row-block windows sit at block `t`, the weight's window at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem t_lt (t : Fin cfg0.N) : t.val < 20 := lt_of_lt_of_eq t.isLt N_0

/-- Window 0's block at point `t` is rows `5000 t …` of the left operand. -/
theorem lblk_apply (c : Dev nD) (t : Fin cfg0.N) (p : Fin 5000) (k : Fin 128) :
    (iblk0 V c 0 t : Vec Ideal S5000x128 .f32) (ix2 p k)
      = lhs V c (ix2 ⟨t.val * 5000 + p.val, by have := t_lt t; have := p.isLt; omega⟩ k) := by
  obtain ⟨e0, e1, -⟩ := idx_facts t
  unfold iblk0
  rw [View.read_apply]
  show V c main_arg0 _ = V c main_arg0 _
  refine congrArg _ (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

/-- Window 1's block at every point is the whole right operand. -/
theorem rblk_apply (c : Dev nD) (t : Fin cfg0.N) (k : Fin 128) (q : Fin 128) :
    (iblk0 V c 1 t : Vec Ideal S128x128 .f32) (ix2 k q) = rhs V c (ix2 k q) := by
  obtain ⟨-, -, e0, e1, -⟩ := idx_facts t
  unfold iblk0
  rw [View.read_apply]
  show V c main_arg3 _ = V c main_arg3 _
  refine congrArg _ (funext fun a => Fin.ext ?_)
  match a with
  | ⟨0, _⟩ => show win0_1.index t (0 : Fin 2) * 128 + 1 * k.val = k.val; rw [e0]; omega
  | ⟨1, _⟩ => show win0_1.index t (1 : Fin 2) * 128 + 1 * q.val = q.val; rw [e1]; omega

/-- What point `t` writes back is block `t` of the whole product. -/
theorem flushed_eq (c : Dev nD) (t : Fin cfg0.N) :
    (dat0 V c).flushed 2 t = ((cfg0.win 2).blk t).view.read (Elt Ideal) (whole V c) := by
  obtain ⟨-, -, -, -, e0, e1⟩ := idx_facts t
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  funext j
  obtain ⟨p, q, rfl⟩ : ∃ (p : Fin 5000) (q : Fin 128), j = ix2 p q := ⟨j 0, j 1, eq_ix2 j⟩
  rw [View.read_apply]
  have hemb : ((cfg0.win 2).blk t).view.emb (ix2 p q)
      = (ix2 ⟨t.val * 5000 + p.val, by have := t_lt t; have := p.isLt; omega⟩ q : (⟨2, ![100000, 128]⟩ : Shape).Idx) := by
    funext a; apply Fin.ext
    match a with
    | ⟨0, _⟩ => show win0_2.index t (0 : Fin 2) * 5000 + 1 * p.val = t.val * 5000 + p.val; rw [e0]; omega
    | ⟨1, _⟩ => show win0_2.index t (1 : Fin 2) * 128 + 1 * q.val = q.val; rw [e1]; omega
  refine (pay_apply (iblk0 V c 0 t) (iblk0 V c 1 t) p q).trans ?_
  refine Eq.trans ?_ (congrArg (whole V c) hemb).symm
  refine Eq.trans ?_ (Cert.PlainDot.dotGeneral_apply _ rfl none (lhs V c) (rhs V c) _ q).symm
  exact Finset.sum_congr rfl fun k _ => by rw [lblk_apply V c t p k, rblk_apply V c t k q]

/-- An index of the result is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v30).slice (win0_2.rect t)).set ↔ _
  rw [View.set_slice_whole, Rect.mem_set_unit]
  exact Iff.rfl

/-- Every index of the result lies in the block of the point its row belongs to. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by rw [show cfg0.N = 20 from N_0]; omega⟩, rfl⟩
  obtain ⟨-, -, -, -, e0, e1⟩ := idx_facts t
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    rw [e0, ht]; omega
  | ⟨1, _⟩ =>
    show win0_2.index t (1 : Fin 2) * 128 ≤ (i 1).val ∧ (i 1).val < win0_2.index t (1 : Fin 2) * 128 + 128
    rw [e1]; omega

/-- After the region the result array holds the whole product of the two arrays the region was entered with. -/
theorem final (c : Dev nD) :
    ((dat0 V c).arrAt 2 cfg0.N : FVec Ideal ⟨2, ![100000, 128]⟩ .f32)
      = whole V c :=
  (dat0 V c).arrAt_eq_of_cover 2 (whole V c) (fun t _ => flushed_eq V c t) cover

end Cert.KernelIdeal.Region0

end
-- ==== Proof.Region1.lean ====
/-
  Region 1 of the kernel's program: the hidden layer's bias and rectifier, twenty row blocks of 5000 rows.

  At grid point `t` the body loads rows `5000 t … 5000 t + 4999` of the aggregated array (window 0) and the
  bias as a `[1, 128]` row (window 1), adds the row to every loaded row, takes the maximum with zero, and stores
  the 5000 × 128 result, which the pipeline writes back as rows `5000 t …` of the output (window 2). Entry
  `(p, q)` of the stored block is `max (agg (5000 t + p, q) + row (0, q)) 0`: entry `(5000 t + p, q)` of the whole
  array plus the row broadcast down all 100000 rows, rectified. The twenty blocks tile the rows, so after the
  region the output array IS that rectified sum, for any contents `V` the region is entered with.
-/
import proofs.«110385_j87505663689257_1_alg».proof.Proof.Gen.KernelIdeal.Frame
import proofs.«110385_j87505663689257_1_alg».proof.Proof.Gen.ReferenceIdeal
import proofs.«110385_j87505663689257_1_alg».proof.Proof.BlockMath
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The aggregated array as the region finds it. -/
abbrev agg (c : Dev nD) : FVec Ideal ⟨2, ![100000, 128]⟩ .f32 := V c main_v43
/-- The bias row as the region finds it. -/
abbrev row (c : Dev nD) : FVec Ideal ⟨2, ![1, 128]⟩ .f32 := V c main_v44

/-- The whole rectified sum: the array plus the row broadcast down the rows, then the maximum with the zero
    array, in the host's operations. -/
abbrev whole (c : Dev nD) : FVec Ideal ⟨2, ![100000, 128]⟩ .f32 :=
  maximumf
    (addf (agg V c) (broadcastInDim Cert.ReferenceIdeal.S100000x128 ![0, 1] Cert.ReferenceIdeal.Facts₀.bcast_S1x128_S100000x128_0_1 (row V c)))
    (broadcastInDim Cert.ReferenceIdeal.S100000x128 ![] Cert.ReferenceIdeal.Facts₀.bcast_S_S100000x128
      (constant (F := Ideal) Cert.ReferenceIdeal.S_ .f32 0x00000000#32))

/-- The whole rectified sum at `(p, q)`. -/
theorem whole_apply (c : Dev nD) (p : Fin 100000) (q : Fin 128) :
    whole V c (ix2 p q) = max (agg V c (ix2 p q) + row V c (ix2 (0 : Fin 1) q)) (Ideal.ofBits .f32 0x00000000#32) := by
  show max (agg V c (ix2 p q) + broadcastInDim _ _ _ (row V c) (ix2 p q))
      (broadcastInDim _ _ _ (constant (F := Ideal) Cert.ReferenceIdeal.S_ .f32 0x00000000#32) (ix2 p q)) = _
  rw [Cert.BlockMath.bcastInDimRows_apply (by decide) (row V c) _ p q,
    Cert.BlockMath.bcastInDimScalar_apply (constant (F := Ideal) Cert.ReferenceIdeal.S_ .f32 0x00000000#32) _ (ix2 p q)]
  rfl

/-- The body's stored value at `(p, q)`: the loaded block's entry plus the loaded row at column `q`, rectified. -/
theorem pay_apply (x0 : Vec Ideal S5000x128 .f32) (x1 : Vec Ideal S1x128 .f32) (p : Fin 5000) (q : Fin 128) :
    k1_pay1 x0 x1 (ix2 p q) = max (x0 (ix2 p q) + x1 (ix2 (0 : Fin 1) q)) (Ideal.ofBits .f32 0x00000000#32) := by
  unfold k1_pay1
  show max (shapeCast S5000x128 x0 _ (ix2 p q) + broadcastTo S5000x128 (shapeCast S1x128 (shapeCast S1x128 x1 _) _) _ (ix2 p q))
      (broadcast S5000x128 (Scalar.ofBits (F := Ideal) .f32 0x00000000#32) (ix2 p q)) = _
  simp only [shapeCast_self]
  rw [Cert.BlockMath.bcastRows_apply (by decide) x1 _ p q]
  rfl

/-- The printed index maps over the grid: the row-block windows sit at block `t`, the bias row's window at block 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem t_lt (t : Fin cfg1.N) : t.val < 20 := lt_of_lt_of_eq t.isLt N_1

/-- Window 0's block at point `t` is rows `5000 t …` of the aggregated array. -/
theorem ablk_apply (c : Dev nD) (t : Fin cfg1.N) (p : Fin 5000) (q : Fin 128) :
    (iblk1 V c 0 t : Vec Ideal S5000x128 .f32) (ix2 p q)
      = agg V c (ix2 ⟨t.val * 5000 + p.val, by have := t_lt t; have := p.isLt; omega⟩ q) := by
  obtain ⟨e0, e1, -⟩ := idx_facts t
  unfold iblk1
  rw [View.read_apply]
  show V c main_v43 _ = V c main_v43 _
  refine congrArg _ (funext fun a => Fin.ext ?_)
  match a with
  | ⟨0, _⟩ => show win1_0.index t (0 : Fin 2) * 5000 + 1 * p.val = t.val * 5000 + p.val; rw [e0]; omega
  | ⟨1, _⟩ => show win1_0.index t (1 : Fin 2) * 128 + 1 * q.val = q.val; rw [e1]; omega

/-- Window 1's block at every point is the whole bias row. -/
theorem rblk_apply (c : Dev nD) (t : Fin cfg1.N) (z : Fin 1) (q : Fin 128) :
    (iblk1 V c 1 t : Vec Ideal S1x128 .f32) (ix2 z q) = row V c (ix2 z q) := by
  obtain ⟨-, -, e0, e1, -⟩ := idx_facts t
  unfold iblk1
  rw [View.read_apply]
  show V c main_v44 _ = V c main_v44 _
  refine congrArg _ (funext fun a => Fin.ext ?_)
  match a with
  | ⟨0, _⟩ => show win1_1.index t (0 : Fin 2) * 1 + 1 * z.val = z.val; rw [e0]; omega
  | ⟨1, _⟩ => show win1_1.index t (1 : Fin 2) * 128 + 1 * q.val = q.val; rw [e1]; omega

/-- What point `t` writes back is block `t` of the whole rectified sum. -/
theorem flushed_eq (c : Dev nD) (t : Fin cfg1.N) :
    (dat1 V c).flushed 2 t = ((cfg1.win 2).blk t).view.read (Elt Ideal) (whole V c) := by
  obtain ⟨-, -, -, -, e0, e1⟩ := idx_facts t
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  funext j
  obtain ⟨p, q, rfl⟩ : ∃ (p : Fin 5000) (q : Fin 128), j = ix2 p q := ⟨j 0, j 1, eq_ix2 j⟩
  rw [View.read_apply]
  have hemb : ((cfg1.win 2).blk t).view.emb (ix2 p q)
      = (ix2 ⟨t.val * 5000 + p.val, by have := t_lt t; have := p.isLt; omega⟩ q : (⟨2, ![100000, 128]⟩ : Shape).Idx) := by
    funext a; apply Fin.ext
    match a with
    | ⟨0, _⟩ => show win1_2.index t (0 : Fin 2) * 5000 + 1 * p.val = t.val * 5000 + p.val; rw [e0]; omega
    | ⟨1, _⟩ => show win1_2.index t (1 : Fin 2) * 128 + 1 * q.val = q.val; rw [e1]; omega
  refine (pay_apply (iblk1 V c 0 t) (iblk1 V c 1 t) p q).trans ?_
  refine Eq.trans ?_ (congrArg (whole V c) hemb).symm
  rw [whole_apply V c _ q, ablk_apply V c t p q, rblk_apply V c t 0 q]

/-- An index of the output is in point `t`'s block iff each coordinate is in the block's range on its axis. -/
theorem mem_blk (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v45).slice (win1_2.rect t)).set ↔ _
  rw [View.set_slice_whole, Rect.mem_set_unit]
  exact Iff.rfl

/-- Every index of the output lies in the block of the point its row belongs to. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ : ∃ t : Fin cfg1.N, t.val = (i 0).val / 5000 :=
    ⟨⟨(i 0).val / 5000, by rw [show cfg1.N = 20 from N_1]; omega⟩, rfl⟩
  obtain ⟨-, -, -, -, e0, e1⟩ := idx_facts t
  refine ⟨t, flush1_2 t, ?_⟩
  rw [mem_blk]
  intro a
  match a with
  | ⟨0, _⟩ =>
    show win1_2.index t (0 : Fin 2) * 5000 ≤ (i 0).val ∧ (i 0).val < win1_2.index t (0 : Fin 2) * 5000 + 5000
    rw [e0, ht]; omega
  | ⟨1, _⟩ =>
    show win1_2.index t (1 : Fin 2) * 128 ≤ (i 1).val ∧ (i 1).val < win1_2.index t (1 : Fin 2) * 128 + 128
    rw [e1]; omega

/-- After the region the output array holds the array it was entered with plus the bias row broadcast down the
    rows, rectified. -/
theorem final (c : Dev nD) :
    ((dat1 V c).arrAt 2 cfg1.N : FVec Ideal ⟨2, ![100000, 128]⟩ .f32) = whole V c :=
  (dat1 V c).arrAt_eq_of_cover 2 (whole V c) (fun t _ => flushed_eq V c t) cover

/-- The same, with the two arrays the region is entered with named by their values. -/
theorem final_of (c : Dev nD) (a : FVec Ideal ⟨2, ![100000, 128]⟩ .f32) (r : FVec Ideal ⟨2, ![1, 128]⟩ .f32)
    (ha : V c main_v43 = a) (hr : V c main_v44 = r) :
    ((dat1 V c).arrAt 2 cfg1.N : FVec Ideal ⟨2, ![100000, 128]⟩ .f32)
      = maximumf
          (addf a (broadcastInDim Cert.ReferenceIdeal.S100000x128 ![0, 1] Cert.ReferenceIdeal.Facts₀.bcast_S1x128_S100000x128_0_1 r))
          (broadcastInDim Cert.ReferenceIdeal.S100000x128 ![] Cert.ReferenceIdeal.Facts₀.bcast_S_S100000x128
            (constant (F := Ideal) Cert.ReferenceIdeal.S_ .f32 0x00000000#32)) := by
  subst ha hr
  exact final V c

end Cert.KernelIdeal.Region1

end
-- ==== Proof.Region2.lean ====
/-
  Region 2 of the kernel's program: `h @ Wmu`, twenty row blocks of 5000 rows.

  At grid point `t` the body loads rows `5000 t … 5000 t + 4999` of the hidden layer (window 0) and the whole
  128 × 64 weight (window 1), multiplies them on the matrix unit into a zero accumulator, and stores the
  5000 × 64 product, which the pipeline writes back as rows `5000 t …` of the result (window 2). At the ideal
  values the product's entry `(p, q)` is `∑ k, h (5000 t + p, k) * w (k, q)`: entry `(5000 t + p, q)` of the
  whole product `h · w`. The twenty blocks tile the 100000 rows, so after the region the result array IS the
  whole product, for any contents `V` the region is entered with.
-/
import proofs.«110385_j87505663689257_1_alg».proof.Proof.Gen.KernelIdeal.Frame
import proofs.«110385_j87505663689257_1_alg».proof.Proof.Gen.ReferenceIdeal
import proofs.«110385_j87505663689257_1_alg».proof.Proof.BlockMath
import Idealize.ShloMosaic.Lib.Pipeline.Value

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The left operand as the region finds it: the whole 100000 × 128 hidden layer. -/
abbrev lhs (c : Dev nD) : FVec Ideal ⟨2, ![100000, 128]⟩ .f32 := V c main_v45
/-- The right operand as the region finds it: the whole 128 × 64 weight. -/
abbrev rhs (c : Dev nD) : FVec Ideal ⟨2, ![128, 64]⟩ .f32 := V c main_arg5

/-- The whole product, as the host's contraction of the two arrays. -/
abbrev whole (c : Dev nD) : FVec Ideal ⟨2, ![100000, 64]⟩ .f32 :=
  Host.dotGeneral Cert.ReferenceIdeal.dot_S100000x128_S128x64_S100000x64_1_0_0_1_n_n none (lhs V c) (rhs V c)

/-- The body's stored value at `(p, q)`: the sum over `k` of the loaded blocks' entries. -/
theorem pay_apply (x0 : Vec Ideal S5000x128 .f32) (x1 : Vec Ideal S128x64 .f32) (p : Fin 5000) (q : Fin 64) :
    k2_pay1 x0 x1 (ix2 p q) = ∑ k : Fin 128, x0 (ix2 p k) * x1 (ix2 k q) := by
  unfold k2_pay1
  simp only [shapeCast_self]
  exact Cert.BlockMath.mm_rounded_apply _ rfl x0 x1 _ _ p q

/-- The printed index maps over the grid: the row-block windows sit at block `t`, the weight's window at block 0. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem t_lt (t : Fin cfg2.N) : t.val < 20 := lt_of_lt_of_eq t.isLt N_2

/-- Window 0's block at point `t` is rows `5000 t …` of the left operand. -/
theorem lblk_apply (c : Dev nD) (t : Fin cfg2.N) (p : Fin 5000) (k : Fin 128) :
    (iblk2 V c 0 t : Vec Ideal S5000x128 .f32) (ix2 p k)
      = lhs V c (ix2 ⟨t.val * 5000 + p.val, by have := t_lt t; have := p.isLt; omega⟩ k) := by
  obtain ⟨e0, e1, -⟩ := idx_facts t
  unfold iblk2
  rw [View.read_apply]
  show V c main_v45 _ = V c main_v45 _
  refine congrArg _ (funext fun a => Fin.ext ?_)
  match a with
  | ⟨0, _⟩ => show win2_0.index t (0 : Fin 2) * 5000 + 1 * p.val = t.val * 5000 + p.val; rw [e0]; omega
  | ⟨1, _⟩ => show win2_0.index t (1 : Fin 2) * 128 + 1 * k.val = k.val; rw [e1]; omega

/-- Window 1's block at every point is the whole right operand. -/
theorem rblk_apply (c : Dev nD) (t : Fin cfg2.N) (k : Fin 128) (q : Fin 64) :
    (iblk2 V c 1 t : Vec Ideal S128x64 .f32) (ix2 k q) = rhs V c (ix2 k q) := by
  obtain ⟨-, -, e0, e1, -⟩ := idx_facts t
  unfold iblk2
  rw [View.read_apply]
  show V c main_arg5 _ = V c main_arg5 _
  refine congrArg _ (funext fun a => Fin.ext ?_)
  match a with
  | ⟨0, _⟩ => show win2_1.index t (0 : Fin 2) * 128 + 1 * k.val = k.val; rw [e0]; omega
  | ⟨1, _⟩ => show win2_1.index t (1 : Fin 2) * 64 + 1 * q.val = q.val; rw [e1]; omega

/-- What point `t` writes back is block `t` of the whole product. -/
theorem flushed_eq (c : Dev nD) (t : Fin cfg2.N) :
    (dat2 V c).flushed 2 t = ((cfg2.win 2).blk t).view.read (Elt Ideal) (whole V c) := by
  obtain ⟨-, -, -, -, e0, e1⟩ := idx_facts t
  show (cfg2.win 2).cut (grid2.coords t) ((dat2 V c).after 2 t) = _
  rw [after2_2]
  unfold out2_2
  rw [View.canon_unit_zero hz]
  simp only [View.ld_unit_zero (S := S5000x128) hz, View.ld_unit_zero (S := S128x64) hz]
  funext j
  obtain ⟨p, q, rfl⟩ : ∃ (p : Fin 5000) (q : Fin 64), j = ix2 p q := ⟨j 0, j 1, eq_ix2 j⟩
  rw [View.read_apply]
  have hemb : ((cfg2.win 2).blk t).view.emb (ix2 p q)
      = (ix2 ⟨t.val * 5000 + p.val, by have := t_lt t; have := p.isLt; omega⟩ q : (⟨2, ![100000, 64]⟩ : Shape).Idx) := by
    funext a; apply Fin.ext
    match a with
    | ⟨0, _⟩ => show win2_2.index t (0 : Fin 2) * 5000 + 1 * p.val = t.val * 5000 + p.val; rw [e0]; omega
    | ⟨1, _⟩ => show win2_2.index t (1 : Fin 2) * 64 + 1 * q.val = q.val; rw [e1]; omega
  refine (pay_apply (iblk2 V c 0 t) (iblk2 V c 1 t) p q).trans ?_
  refine Eq.trans ?_ (congrArg (whole V c) hemb).symm
  refine Eq.trans ?_ (Cert.PlainDot.dotGeneral_apply _ rfl none (lhs V c) (rhs V c) _ q).symm
  exact Finset.sum_congr rfl fun k _ => by rw [lblk_apply V c t p k, rblk_apply V c t k q]

/-- An index of the result is in point `t`'s block iff each coordinate is in the block's range on its axis. -/
theorem mem_blk (t : Fin cfg2.N) (i : S100000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v46).slice (win2_2.rect t)).set ↔ _
  rw [View.set_slice_whole, Rect.mem_set_unit]
  exact Iff.rfl

/-- Every index of the result lies in the block of the point its row belongs to. -/
theorem cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ : ∃ t : Fin cfg2.N, t.val = (i 0).val / 5000 :=
    ⟨⟨(i 0).val / 5000, by rw [show cfg2.N = 20 from N_2]; omega⟩, rfl⟩
  obtain ⟨-, -, -, -, e0, e1⟩ := idx_facts t
  refine ⟨t, flush2_2 t, ?_⟩
  rw [mem_blk]
  intro a
  match a with
  | ⟨0, _⟩ =>
    show win2_2.index t (0 : Fin 2) * 5000 ≤ (i 0).val ∧ (i 0).val < win2_2.index t (0 : Fin 2) * 5000 + 5000
    rw [e0, ht]; omega
  | ⟨1, _⟩ =>
    show win2_2.index t (1 : Fin 2) * 64 ≤ (i 1).val ∧ (i 1).val < win2_2.index t (1 : Fin 2) * 64 + 64
    rw [e1]; omega

/-- After the region the result array holds the whole product of the two arrays the region was entered with. -/
theorem final (c : Dev nD) :
    ((dat2 V c).arrAt 2 cfg2.N : FVec Ideal ⟨2, ![100000, 64]⟩ .f32) = whole V c :=
  (dat2 V c).arrAt_eq_of_cover 2 (whole V c) (fun t _ => flushed_eq V c t) cover

end Cert.KernelIdeal.Region2

end
-- ==== Proof.Region3.lean ====
/-
  Region 3 of the kernel's program: the mean head's bias, twenty row blocks of 5000 rows.

  At grid point `t` the body loads rows `5000 t … 5000 t + 4999` of the aggregated array (window 0) and the
  bias as a `[1, 64]` row (window 1), adds the row to every loaded row, and stores the 5000 × 64 sum, which
  the pipeline writes back as rows `5000 t …` of the result (window 2). Entry `(p, q)` of the stored block is
  `agg (5000 t + p, q) + row (0, q)`: entry `(5000 t + p, q)` of the whole array plus the row broadcast down all
  100000 rows. The twenty blocks tile the rows, so after the region the result array IS that sum, for any
  contents `V` the region is entered with.
-/
import proofs.«110385_j87505663689257_1_alg».proof.Proof.Gen.KernelIdeal.Frame
import proofs.«110385_j87505663689257_1_alg».proof.Proof.Gen.ReferenceIdeal
import proofs.«110385_j87505663689257_1_alg».proof.Proof.BlockMath
import Idealize.ShloMosaic.Lib.Pipeline.Value

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The aggregated array as the region finds it. -/
abbrev agg (c : Dev nD) : FVec Ideal ⟨2, ![100000, 64]⟩ .f32 := V c main_v59
/-- The bias row as the region finds it. -/
abbrev row (c : Dev nD) : FVec Ideal ⟨2, ![1, 64]⟩ .f32 := V c main_v60

/-- The whole sum: the array plus the row broadcast down the rows, in the host's operations. -/
abbrev whole (c : Dev nD) : FVec Ideal ⟨2, ![100000, 64]⟩ .f32 :=
  addf (agg V c) (broadcastInDim Cert.ReferenceIdeal.S100000x64 ![0, 1] Cert.ReferenceIdeal.Facts₀.bcast_S1x64_S100000x64_0_1 (row V c))

/-- The whole sum at `(p, q)`. -/
theorem whole_apply (c : Dev nD) (p : Fin 100000) (q : Fin 64) :
    whole V c (ix2 p q) = agg V c (ix2 p q) + row V c (ix2 (0 : Fin 1) q) := by
  show agg V c (ix2 p q) + broadcastInDim _ _ _ (row V c) (ix2 p q) = _
  rw [Cert.BlockMath.bcastInDimRows_apply (by decide) (row V c) _ p q]

/-- The body's stored value at `(p, q)`: the loaded block's entry plus the loaded row at column `q`. -/
theorem pay_apply (x0 : Vec Ideal S5000x64 .f32) (x1 : Vec Ideal S1x64 .f32) (p : Fin 5000) (q : Fin 64) :
    k3_pay1 x0 x1 (ix2 p q) = x0 (ix2 p q) + x1 (ix2 (0 : Fin 1) q) := by
  unfold k3_pay1
  show shapeCast S5000x64 x0 _ (ix2 p q) + broadcastTo S5000x64 (shapeCast S1x64 (shapeCast S1x64 x1 _) _) _ (ix2 p q) = _
  simp only [shapeCast_self]
  rw [Cert.BlockMath.bcastRows_apply (by decide) x1 _ p q]

/-- The printed index maps over the grid: the row-block windows sit at block `t`, the bias row's window at block 0. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem t_lt (t : Fin cfg3.N) : t.val < 20 := lt_of_lt_of_eq t.isLt N_3

/-- Window 0's block at point `t` is rows `5000 t …` of the aggregated array. -/
theorem ablk_apply (c : Dev nD) (t : Fin cfg3.N) (p : Fin 5000) (q : Fin 64) :
    (iblk3 V c 0 t : Vec Ideal S5000x64 .f32) (ix2 p q)
      = agg V c (ix2 ⟨t.val * 5000 + p.val, by have := t_lt t; have := p.isLt; omega⟩ q) := by
  obtain ⟨e0, e1, -⟩ := idx_facts t
  unfold iblk3
  rw [View.read_apply]
  show V c main_v59 _ = V c main_v59 _
  refine congrArg _ (funext fun a => Fin.ext ?_)
  match a with
  | ⟨0, _⟩ => show win3_0.index t (0 : Fin 2) * 5000 + 1 * p.val = t.val * 5000 + p.val; rw [e0]; omega
  | ⟨1, _⟩ => show win3_0.index t (1 : Fin 2) * 64 + 1 * q.val = q.val; rw [e1]; omega

/-- Window 1's block at every point is the whole bias row. -/
theorem rblk_apply (c : Dev nD) (t : Fin cfg3.N) (z : Fin 1) (q : Fin 64) :
    (iblk3 V c 1 t : Vec Ideal S1x64 .f32) (ix2 z q) = row V c (ix2 z q) := by
  obtain ⟨-, -, e0, e1, -⟩ := idx_facts t
  unfold iblk3
  rw [View.read_apply]
  show V c main_v60 _ = V c main_v60 _
  refine congrArg _ (funext fun a => Fin.ext ?_)
  match a with
  | ⟨0, _⟩ => show win3_1.index t (0 : Fin 2) * 1 + 1 * z.val = z.val; rw [e0]; omega
  | ⟨1, _⟩ => show win3_1.index t (1 : Fin 2) * 64 + 1 * q.val = q.val; rw [e1]; omega

/-- What point `t` writes back is block `t` of the whole sum. -/
theorem flushed_eq (c : Dev nD) (t : Fin cfg3.N) :
    (dat3 V c).flushed 2 t = ((cfg3.win 2).blk t).view.read (Elt Ideal) (whole V c) := by
  obtain ⟨-, -, -, -, e0, e1⟩ := idx_facts t
  show (cfg3.win 2).cut (grid3.coords t) ((dat3 V c).after 2 t) = _
  rw [after3_2]
  unfold out3_2
  rw [View.canon_unit_zero hz]
  simp only [View.ld_unit_zero (S := S5000x64) hz, View.ld_unit_zero (S := S1x64) hz]
  funext j
  obtain ⟨p, q, rfl⟩ : ∃ (p : Fin 5000) (q : Fin 64), j = ix2 p q := ⟨j 0, j 1, eq_ix2 j⟩
  rw [View.read_apply]
  have hemb : ((cfg3.win 2).blk t).view.emb (ix2 p q)
      = (ix2 ⟨t.val * 5000 + p.val, by have := t_lt t; have := p.isLt; omega⟩ q : (⟨2, ![100000, 64]⟩ : Shape).Idx) := by
    funext a; apply Fin.ext
    match a with
    | ⟨0, _⟩ => show win3_2.index t (0 : Fin 2) * 5000 + 1 * p.val = t.val * 5000 + p.val; rw [e0]; omega
    | ⟨1, _⟩ => show win3_2.index t (1 : Fin 2) * 64 + 1 * q.val = q.val; rw [e1]; omega
  refine (pay_apply (iblk3 V c 0 t) (iblk3 V c 1 t) p q).trans ?_
  refine Eq.trans ?_ (congrArg (whole V c) hemb).symm
  rw [whole_apply V c _ q, ablk_apply V c t p q, rblk_apply V c t 0 q]

/-- An index of the result is in point `t`'s block iff each coordinate is in the block's range on its axis. -/
theorem mem_blk (t : Fin cfg3.N) (i : S100000x64.Idx) :
    i ∈ ((cfg3.win 2).blk t).view.set ↔ ∀ a : Fin 2, win3_2.index t a * S5000x64.size a ≤ (i a).val
      ∧ (i a).val < win3_2.index t a * S5000x64.size a + S5000x64.size a := by
  show i ∈ ((View.whole main_v61).slice (win3_2.rect t)).set ↔ _
  rw [View.set_slice_whole, Rect.mem_set_unit]
  exact Iff.rfl

/-- Every index of the result lies in the block of the point its row belongs to. -/
theorem cover (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ : ∃ t : Fin cfg3.N, t.val = (i 0).val / 5000 :=
    ⟨⟨(i 0).val / 5000, by rw [show cfg3.N = 20 from N_3]; omega⟩, rfl⟩
  obtain ⟨-, -, -, -, e0, e1⟩ := idx_facts t
  refine ⟨t, flush3_2 t, ?_⟩
  rw [mem_blk]
  intro a
  match a with
  | ⟨0, _⟩ =>
    show win3_2.index t (0 : Fin 2) * 5000 ≤ (i 0).val ∧ (i 0).val < win3_2.index t (0 : Fin 2) * 5000 + 5000
    rw [e0, ht]; omega
  | ⟨1, _⟩ =>
    show win3_2.index t (1 : Fin 2) * 64 ≤ (i 1).val ∧ (i 1).val < win3_2.index t (1 : Fin 2) * 64 + 64
    rw [e1]; omega

/-- After the region the result array holds the array it was entered with plus the bias row broadcast down the rows. -/
theorem final (c : Dev nD) :
    ((dat3 V c).arrAt 2 cfg3.N : FVec Ideal ⟨2, ![100000, 64]⟩ .f32) = whole V c :=
  (dat3 V c).arrAt_eq_of_cover 2 (whole V c) (fun t _ => flushed_eq V c t) cover

/-- The same, with the two arrays the region is entered with named by their values. -/
theorem final_of (c : Dev nD) (a : FVec Ideal ⟨2, ![100000, 64]⟩ .f32) (r : FVec Ideal ⟨2, ![1, 64]⟩ .f32)
    (ha : V c main_v59 = a) (hr : V c main_v60 = r) :
    ((dat3 V c).arrAt 2 cfg3.N : FVec Ideal ⟨2, ![100000, 64]⟩ .f32)
      = addf a (broadcastInDim Cert.ReferenceIdeal.S100000x64 ![0, 1] Cert.ReferenceIdeal.Facts₀.bcast_S1x64_S100000x64_0_1 r) := by
  subst ha hr
  exact final V c

end Cert.KernelIdeal.Region3

end
-- ==== Proof.Region4.lean ====
/-
  Region 4 of the kernel's program: `h @ Wlv`, twenty row blocks of 5000 rows.

  At grid point `t` the body loads rows `5000 t … 5000 t + 4999` of the hidden layer (window 0) and the whole
  128 × 64 weight (window 1), multiplies them on the matrix unit into a zero accumulator, and stores the
  5000 × 64 product, which the pipeline writes back as rows `5000 t …` of the result (window 2). At the ideal
  values the product's entry `(p, q)` is `∑ k, h (5000 t + p, k) * w (k, q)`: entry `(5000 t + p, q)` of the
  whole product `h · w`. The twenty blocks tile the 100000 rows, so after the region the result array IS the
  whole product, for any contents `V` the region is entered with.
-/
import proofs.«110385_j87505663689257_1_alg».proof.Proof.Gen.KernelIdeal.Frame
import proofs.«110385_j87505663689257_1_alg».proof.Proof.Gen.ReferenceIdeal
import proofs.«110385_j87505663689257_1_alg».proof.Proof.BlockMath
import Idealize.ShloMosaic.Lib.Pipeline.Value

set_option maxRecDepth 16384

noncomputable section

namespace Cert.KernelIdeal.Region4

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The left operand as the region finds it: the whole 100000 × 128 hidden layer. -/
abbrev lhs (c : Dev nD) : FVec Ideal ⟨2, ![100000, 128]⟩ .f32 := V c main_v45
/-- The right operand as the region finds it: the whole 128 × 64 weight. -/
abbrev rhs (c : Dev nD) : FVec Ideal ⟨2, ![128, 64]⟩ .f32 := V c main_arg7

/-- The whole product, as the host's contraction of the two arrays. -/
abbrev whole (c : Dev nD) : FVec Ideal ⟨2, ![100000, 64]⟩ .f32 :=
  Host.dotGeneral Cert.ReferenceIdeal.dot_S100000x128_S128x64_S100000x64_1_0_0_1_n_n none (lhs V c) (rhs V c)

/-- The body's stored value at `(p, q)`: the sum over `k` of the loaded blocks' entries. -/
theorem pay_apply (x0 : Vec Ideal S5000x128 .f32) (x1 : Vec Ideal S128x64 .f32) (p : Fin 5000) (q : Fin 64) :
    k4_pay1 x0 x1 (ix2 p q) = ∑ k : Fin 128, x0 (ix2 p k) * x1 (ix2 k q) := by
  unfold k4_pay1
  simp only [shapeCast_self]
  exact Cert.BlockMath.mm_rounded_apply _ rfl x0 x1 _ _ p q

/-- The printed index maps over the grid: the row-block windows sit at block `t`, the weight's window at block 0. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

theorem t_lt (t : Fin cfg4.N) : t.val < 20 := lt_of_lt_of_eq t.isLt N_4

/-- Window 0's block at point `t` is rows `5000 t …` of the left operand. -/
theorem lblk_apply (c : Dev nD) (t : Fin cfg4.N) (p : Fin 5000) (k : Fin 128) :
    (iblk4 V c 0 t : Vec Ideal S5000x128 .f32) (ix2 p k)
      = lhs V c (ix2 ⟨t.val * 5000 + p.val, by have := t_lt t; have := p.isLt; omega⟩ k) := by
  obtain ⟨e0, e1, -⟩ := idx_facts t
  unfold iblk4
  rw [View.read_apply]
  show V c main_v45 _ = V c main_v45 _
  refine congrArg _ (funext fun a => Fin.ext ?_)
  match a with
  | ⟨0, _⟩ => show win4_0.index t (0 : Fin 2) * 5000 + 1 * p.val = t.val * 5000 + p.val; rw [e0]; omega
  | ⟨1, _⟩ => show win4_0.index t (1 : Fin 2) * 128 + 1 * k.val = k.val; rw [e1]; omega

/-- Window 1's block at every point is the whole right operand. -/
theorem rblk_apply (c : Dev nD) (t : Fin cfg4.N) (k : Fin 128) (q : Fin 64) :
    (iblk4 V c 1 t : Vec Ideal S128x64 .f32) (ix2 k q) = rhs V c (ix2 k q) := by
  obtain ⟨-, -, e0, e1, -⟩ := idx_facts t
  unfold iblk4
  rw [View.read_apply]
  show V c main_arg7 _ = V c main_arg7 _
  refine congrArg _ (funext fun a => Fin.ext ?_)
  match a with
  | ⟨0, _⟩ => show win4_1.index t (0 : Fin 2) * 128 + 1 * k.val = k.val; rw [e0]; omega
  | ⟨1, _⟩ => show win4_1.index t (1 : Fin 2) * 64 + 1 * q.val = q.val; rw [e1]; omega

/-- What point `t` writes back is block `t` of the whole product. -/
theorem flushed_eq (c : Dev nD) (t : Fin cfg4.N) :
    (dat4 V c).flushed 2 t = ((cfg4.win 2).blk t).view.read (Elt Ideal) (whole V c) := by
  obtain ⟨-, -, -, -, e0, e1⟩ := idx_facts t
  show (cfg4.win 2).cut (grid4.coords t) ((dat4 V c).after 2 t) = _
  rw [after4_2]
  unfold out4_2
  rw [View.canon_unit_zero hz]
  simp only [View.ld_unit_zero (S := S5000x128) hz, View.ld_unit_zero (S := S128x64) hz]
  funext j
  obtain ⟨p, q, rfl⟩ : ∃ (p : Fin 5000) (q : Fin 64), j = ix2 p q := ⟨j 0, j 1, eq_ix2 j⟩
  rw [View.read_apply]
  have hemb : ((cfg4.win 2).blk t).view.emb (ix2 p q)
      = (ix2 ⟨t.val * 5000 + p.val, by have := t_lt t; have := p.isLt; omega⟩ q : (⟨2, ![100000, 64]⟩ : Shape).Idx) := by
    funext a; apply Fin.ext
    match a with
    | ⟨0, _⟩ => show win4_2.index t (0 : Fin 2) * 5000 + 1 * p.val = t.val * 5000 + p.val; rw [e0]; omega
    | ⟨1, _⟩ => show win4_2.index t (1 : Fin 2) * 64 + 1 * q.val = q.val; rw [e1]; omega
  refine (pay_apply (iblk4 V c 0 t) (iblk4 V c 1 t) p q).trans ?_
  refine Eq.trans ?_ (congrArg (whole V c) hemb).symm
  refine Eq.trans ?_ (Cert.PlainDot.dotGeneral_apply _ rfl none (lhs V c) (rhs V c) _ q).symm
  exact Finset.sum_congr rfl fun k _ => by rw [lblk_apply V c t p k, rblk_apply V c t k q]

/-- An index of the result is in point `t`'s block iff each coordinate is in the block's range on its axis. -/
theorem mem_blk (t : Fin cfg4.N) (i : S100000x64.Idx) :
    i ∈ ((cfg4.win 2).blk t).view.set ↔ ∀ a : Fin 2, win4_2.index t a * S5000x64.size a ≤ (i a).val
      ∧ (i a).val < win4_2.index t a * S5000x64.size a + S5000x64.size a := by
  show i ∈ ((View.whole main_v62).slice (win4_2.rect t)).set ↔ _
  rw [View.set_slice_whole, Rect.mem_set_unit]
  exact Iff.rfl

/-- Every index of the result lies in the block of the point its row belongs to. -/
theorem cover (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  obtain ⟨t, ht⟩ : ∃ t : Fin cfg4.N, t.val = (i 0).val / 5000 :=
    ⟨⟨(i 0).val / 5000, by rw [show cfg4.N = 20 from N_4]; omega⟩, rfl⟩
  obtain ⟨-, -, -, -, e0, e1⟩ := idx_facts t
  refine ⟨t, flush4_2 t, ?_⟩
  rw [mem_blk]
  intro a
  match a with
  | ⟨0, _⟩ =>
    show win4_2.index t (0 : Fin 2) * 5000 ≤ (i 0).val ∧ (i 0).val < win4_2.index t (0 : Fin 2) * 5000 + 5000
    rw [e0, ht]; omega
  | ⟨1, _⟩ =>
    show win4_2.index t (1 : Fin 2) * 64 ≤ (i 1).val ∧ (i 1).val < win4_2.index t (1 : Fin 2) * 64 + 64
    rw [e1]; omega

/-- After the region the result array holds the whole product of the two arrays the region was entered with. -/
theorem final (c : Dev nD) :
    ((dat4 V c).arrAt 2 cfg4.N : FVec Ideal ⟨2, ![100000, 64]⟩ .f32) = whole V c :=
  (dat4 V c).arrAt_eq_of_cover 2 (whole V c) (fun t _ => flushed_eq V c t) cover

end Cert.KernelIdeal.Region4

end
-- ==== Proof.Region5.lean ====
/-
  Region 5 of the kernel's program: the log-variance head's bias, twenty row blocks of 5000 rows.

  At grid point `t` the body loads rows `5000 t … 5000 t + 4999` of the aggregated array (window 0) and the
  bias as a `[1, 64]` row (window 1), adds the row to every loaded row, and stores the 5000 × 64 sum, which
  the pipeline writes back as rows `5000 t …` of the result (window 2). Entry `(p, q)` of the stored block is
  `agg (5000 t + p, q) + row (0, q)`: entry `(5000 t + p, q)` of the whole array plus the row broadcast down all
  100000 rows. The twenty blocks tile the rows, so after the region the result array IS that sum, for any
  contents `V` the region is entered with.
-/
import proofs.«110385_j87505663689257_1_alg».proof.Proof.Gen.KernelIdeal.Frame
import proofs.«110385_j87505663689257_1_alg».proof.Proof.Gen.ReferenceIdeal
import proofs.«110385_j87505663689257_1_alg».proof.Proof.BlockMath
import Idealize.ShloMosaic.Lib.Pipeline.Value

set_option maxRecDepth 16384

noncomputable section

namespace Cert.KernelIdeal.Region5

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The aggregated array as the region finds it. -/
abbrev agg (c : Dev nD) : FVec Ideal ⟨2, ![100000, 64]⟩ .f32 := V c main_v75
/-- The bias row as the region finds it. -/
abbrev row (c : Dev nD) : FVec Ideal ⟨2, ![1, 64]⟩ .f32 := V c main_v76

/-- The whole sum: the array plus the row broadcast down the rows, in the host's operations. -/
abbrev whole (c : Dev nD) : FVec Ideal ⟨2, ![100000, 64]⟩ .f32 :=
  addf (agg V c) (broadcastInDim Cert.ReferenceIdeal.S100000x64 ![0, 1] Cert.ReferenceIdeal.Facts₀.bcast_S1x64_S100000x64_0_1 (row V c))

/-- The whole sum at `(p, q)`. -/
theorem whole_apply (c : Dev nD) (p : Fin 100000) (q : Fin 64) :
    whole V c (ix2 p q) = agg V c (ix2 p q) + row V c (ix2 (0 : Fin 1) q) := by
  show agg V c (ix2 p q) + broadcastInDim _ _ _ (row V c) (ix2 p q) = _
  rw [Cert.BlockMath.bcastInDimRows_apply (by decide) (row V c) _ p q]

/-- The body's stored value at `(p, q)`: the loaded block's entry plus the loaded row at column `q`. -/
theorem pay_apply (x0 : Vec Ideal S5000x64 .f32) (x1 : Vec Ideal S1x64 .f32) (p : Fin 5000) (q : Fin 64) :
    k5_pay1 x0 x1 (ix2 p q) = x0 (ix2 p q) + x1 (ix2 (0 : Fin 1) q) := by
  unfold k5_pay1
  show shapeCast S5000x64 x0 _ (ix2 p q) + broadcastTo S5000x64 (shapeCast S1x64 (shapeCast S1x64 x1 _) _) _ (ix2 p q) = _
  simp only [shapeCast_self]
  rw [Cert.BlockMath.bcastRows_apply (by decide) x1 _ p q]

/-- The printed index maps over the grid: the row-block windows sit at block `t`, the bias row's window at block 0. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

theorem t_lt (t : Fin cfg5.N) : t.val < 20 := lt_of_lt_of_eq t.isLt N_5

/-- Window 0's block at point `t` is rows `5000 t …` of the aggregated array. -/
theorem ablk_apply (c : Dev nD) (t : Fin cfg5.N) (p : Fin 5000) (q : Fin 64) :
    (iblk5 V c 0 t : Vec Ideal S5000x64 .f32) (ix2 p q)
      = agg V c (ix2 ⟨t.val * 5000 + p.val, by have := t_lt t; have := p.isLt; omega⟩ q) := by
  obtain ⟨e0, e1, -⟩ := idx_facts t
  unfold iblk5
  rw [View.read_apply]
  show V c main_v75 _ = V c main_v75 _
  refine congrArg _ (funext fun a => Fin.ext ?_)
  match a with
  | ⟨0, _⟩ => show win5_0.index t (0 : Fin 2) * 5000 + 1 * p.val = t.val * 5000 + p.val; rw [e0]; omega
  | ⟨1, _⟩ => show win5_0.index t (1 : Fin 2) * 64 + 1 * q.val = q.val; rw [e1]; omega

/-- Window 1's block at every point is the whole bias row. -/
theorem rblk_apply (c : Dev nD) (t : Fin cfg5.N) (z : Fin 1) (q : Fin 64) :
    (iblk5 V c 1 t : Vec Ideal S1x64 .f32) (ix2 z q) = row V c (ix2 z q) := by
  obtain ⟨-, -, e0, e1, -⟩ := idx_facts t
  unfold iblk5
  rw [View.read_apply]
  show V c main_v76 _ = V c main_v76 _
  refine congrArg _ (funext fun a => Fin.ext ?_)
  match a with
  | ⟨0, _⟩ => show win5_1.index t (0 : Fin 2) * 1 + 1 * z.val = z.val; rw [e0]; omega
  | ⟨1, _⟩ => show win5_1.index t (1 : Fin 2) * 64 + 1 * q.val = q.val; rw [e1]; omega

/-- What point `t` writes back is block `t` of the whole sum. -/
theorem flushed_eq (c : Dev nD) (t : Fin cfg5.N) :
    (dat5 V c).flushed 2 t = ((cfg5.win 2).blk t).view.read (Elt Ideal) (whole V c) := by
  obtain ⟨-, -, -, -, e0, e1⟩ := idx_facts t
  show (cfg5.win 2).cut (grid5.coords t) ((dat5 V c).after 2 t) = _
  rw [after5_2]
  unfold out5_2
  rw [View.canon_unit_zero hz]
  simp only [View.ld_unit_zero (S := S5000x64) hz, View.ld_unit_zero (S := S1x64) hz]
  funext j
  obtain ⟨p, q, rfl⟩ : ∃ (p : Fin 5000) (q : Fin 64), j = ix2 p q := ⟨j 0, j 1, eq_ix2 j⟩
  rw [View.read_apply]
  have hemb : ((cfg5.win 2).blk t).view.emb (ix2 p q)
      = (ix2 ⟨t.val * 5000 + p.val, by have := t_lt t; have := p.isLt; omega⟩ q : (⟨2, ![100000, 64]⟩ : Shape).Idx) := by
    funext a; apply Fin.ext
    match a with
    | ⟨0, _⟩ => show win5_2.index t (0 : Fin 2) * 5000 + 1 * p.val = t.val * 5000 + p.val; rw [e0]; omega
    | ⟨1, _⟩ => show win5_2.index t (1 : Fin 2) * 64 + 1 * q.val = q.val; rw [e1]; omega
  refine (pay_apply (iblk5 V c 0 t) (iblk5 V c 1 t) p q).trans ?_
  refine Eq.trans ?_ (congrArg (whole V c) hemb).symm
  rw [whole_apply V c _ q, ablk_apply V c t p q, rblk_apply V c t 0 q]

/-- An index of the result is in point `t`'s block iff each coordinate is in the block's range on its axis. -/
theorem mem_blk (t : Fin cfg5.N) (i : S100000x64.Idx) :
    i ∈ ((cfg5.win 2).blk t).view.set ↔ ∀ a : Fin 2, win5_2.index t a * S5000x64.size a ≤ (i a).val
      ∧ (i a).val < win5_2.index t a * S5000x64.size a + S5000x64.size a := by
  show i ∈ ((View.whole main_v77).slice (win5_2.rect t)).set ↔ _
  rw [View.set_slice_whole, Rect.mem_set_unit]
  exact Iff.rfl

/-- Every index of the result lies in the block of the point its row belongs to. -/
theorem cover (i : S100000x64.Idx) :
    ∃ t : Fin cfg5.N, (cfg5.win 2).flush t = true ∧ i ∈ ((cfg5.win 2).blk t).view.set := by
  have hi0 : (i 0).val < 100000 := (i 0).isLt
  have hi1 : (i 1).val < 64 := (i 1).isLt
  obtain ⟨t, ht⟩ : ∃ t : Fin cfg5.N, t.val = (i 0).val / 5000 :=
    ⟨⟨(i 0).val / 5000, by rw [show cfg5.N = 20 from N_5]; omega⟩, rfl⟩
  obtain ⟨-, -, -, -, e0, e1⟩ := idx_facts t
  refine ⟨t, flush5_2 t, ?_⟩
  rw [mem_blk]
  intro a
  match a with
  | ⟨0, _⟩ =>
    show win5_2.index t (0 : Fin 2) * 5000 ≤ (i 0).val ∧ (i 0).val < win5_2.index t (0 : Fin 2) * 5000 + 5000
    rw [e0, ht]; omega
  | ⟨1, _⟩ =>
    show win5_2.index t (1 : Fin 2) * 64 ≤ (i 1).val ∧ (i 1).val < win5_2.index t (1 : Fin 2) * 64 + 64
    rw [e1]; omega

/-- After the region the result array holds the array it was entered with plus the bias row broadcast down the rows. -/
theorem final (c : Dev nD) :
    ((dat5 V c).arrAt 2 cfg5.N : FVec Ideal ⟨2, ![100000, 64]⟩ .f32) = whole V c :=
  (dat5 V c).arrAt_eq_of_cover 2 (whole V c) (fun t _ => flushed_eq V c t) cover

/-- The same, with the two arrays the region is entered with named by their values. -/
theorem final_of (c : Dev nD) (a : FVec Ideal ⟨2, ![100000, 64]⟩ .f32) (r : FVec Ideal ⟨2, ![1, 64]⟩ .f32)
    (ha : V c main_v75 = a) (hr : V c main_v76 = r) :
    ((dat5 V c).arrAt 2 cfg5.N : FVec Ideal ⟨2, ![100000, 64]⟩ .f32)
      = addf a (broadcastInDim Cert.ReferenceIdeal.S100000x64 ![0, 1] Cert.ReferenceIdeal.Facts₀.bcast_S1x64_S100000x64_0_1 r) := by
  subst ha hr
  exact final V c

end Cert.KernelIdeal.Region5

end
-- ==== Proof.Fold.lean ====
/-
  What the kernel's program leaves in its two result arrays, read back through the run.

  The generated frame names the TensorCore's buffer contents at every boundary of @main: `Gen.W0` at launch, then one
  fold step per segment up to `Gen.W12` at the return — a host stretch is `StableHlo.after` of its operations, a
  pallas_call region rewrites its three arrays to what its write-backs leave and keeps every other buffer.

  Walking the boundaries in order, each buffer a later segment reads is shown to hold the SAME function of the launch
  arguments as the reference program's stage for that value (the reference's stages `val_main_vN`, one per
  operation, as functions of @main's arguments):

    * the edge lists with self loops, and the symmetric normalisation `dis[src] * dis[dst]`: the same host
      operations in both programs;
    * a matrix-product region: the host's contraction of the two arrays it is entered with (Region0/2/4);
    * gather, scale and scatter-add: the same host operations, applied to equal operands;
    * a bias region: the aggregated array plus the bias row broadcast down the rows, and for the hidden layer the
      maximum with zero (Region1/3/5); the kernel reshapes the bias to `[1, C]` where the reference broadcasts it into
      `[1, C]`, which is the same row.

  The two results are then the reference's `val_main_v64` and `val_main_v81` of the launch arguments.
-/
import proofs.«110385_j87505663689257_1_alg».proof.Proof.Gen.KernelIdeal.Frame
import proofs.«110385_j87505663689257_1_alg».proof.Proof.RefRead
import proofs.«110385_j87505663689257_1_alg».proof.Proof.BlockMath
import proofs.«110385_j87505663689257_1_alg».proof.Proof.Region0
import proofs.«110385_j87505663689257_1_alg».proof.Proof.Region1
import proofs.«110385_j87505663689257_1_alg».proof.Proof.Region2
import proofs.«110385_j87505663689257_1_alg».proof.Proof.Region3
import proofs.«110385_j87505663689257_1_alg».proof.Proof.Region4
import proofs.«110385_j87505663689257_1_alg».proof.Proof.Region5
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Cert.ReferenceIdeal.ReadP

local notation:max "dr " b:max => Proc.devRef (τ := τ) (sig := sig) Proc.tc b

/-! ## The host stretches, from any contents `W` -/

section Stretches

variable {F : FTy → Type} [FloatOps F] (W : Valuation τ sig (Elt F))

/-- The three stretches before the first region, run from `W`. -/
abbrev pre : Valuation τ sig (Elt F) := after hostOps0_2 (after hostOps0_1 (after hostOps0 W))

/-- Source nodes with self loops appended: a function of the edge list alone. -/
theorem pre_v3 : pre W (dr main_v3) = val_main_v3 (W (dr main_arg1)) := by
  dsimp only [pre, hostOps0, hostOps0_1, hostOps0_2]
  after_results
  rfl

/-- Target nodes with self loops appended. -/
theorem pre_v6 : pre W (dr main_v6) = val_main_v6 (W (dr main_arg1)) := by
  dsimp only [pre, hostOps0, hostOps0_1, hostOps0_2]
  after_results
  rfl

set_option maxHeartbeats 4000000 in
/-- The edge weights `dis[src] * dis[dst]`, `dis` the inverse square root of the in-degree where it is positive. -/
theorem pre_v29 : pre W (dr main_v29) = val_main_v29 (W (dr main_arg1)) := by
  dsimp only [pre, hostOps0, hostOps0_1, hostOps0_2]
  after_results_simp
  rfl

/-- No operation before the first region writes an argument. -/
theorem pre_arg0 : pre W (dr main_arg0) = W (dr main_arg0) := by
  dsimp only [pre, hostOps0, hostOps0_1, hostOps0_2]; after_results
theorem pre_arg3 : pre W (dr main_arg3) = W (dr main_arg3) := by
  dsimp only [pre, hostOps0, hostOps0_1, hostOps0_2]; after_results
theorem pre_arg4 : pre W (dr main_arg4) = W (dr main_arg4) := by
  dsimp only [pre, hostOps0, hostOps0_1, hostOps0_2]; after_results
theorem pre_arg5 : pre W (dr main_arg5) = W (dr main_arg5) := by
  dsimp only [pre, hostOps0, hostOps0_1, hostOps0_2]; after_results
theorem pre_arg6 : pre W (dr main_arg6) = W (dr main_arg6) := by
  dsimp only [pre, hostOps0, hostOps0_1, hostOps0_2]; after_results
theorem pre_arg7 : pre W (dr main_arg7) = W (dr main_arg7) := by
  dsimp only [pre, hostOps0, hostOps0_1, hostOps0_2]; after_results
theorem pre_arg8 : pre W (dr main_arg8) = W (dr main_arg8) := by
  dsimp only [pre, hostOps0, hostOps0_1, hostOps0_2]; after_results

variable (x0 : (⟨Cert.ReferenceIdeal.S100000x128, .f32⟩ : BufTy).Contents (Elt F))
  (x1 : (⟨Cert.ReferenceIdeal.S2x800000, .i32⟩ : BufTy).Contents (Elt F))
  (x3 : (⟨Cert.ReferenceIdeal.S128x128, .f32⟩ : BufTy).Contents (Elt F))
  (x4 : (⟨Cert.ReferenceIdeal.S128, .f32⟩ : BufTy).Contents (Elt F))
  (x5 : (⟨Cert.ReferenceIdeal.S128x64, .f32⟩ : BufTy).Contents (Elt F))
  (x6 : (⟨Cert.ReferenceIdeal.S64, .f32⟩ : BufTy).Contents (Elt F))
  (x7 : (⟨Cert.ReferenceIdeal.S128x64, .f32⟩ : BufTy).Contents (Elt F))
  (x8 : (⟨Cert.ReferenceIdeal.S64, .f32⟩ : BufTy).Contents (Elt F))

set_option maxHeartbeats 4000000 in
/-- The first layer's aggregation: gather the product's rows at the sources, scale by the edge weights,
    scatter-add at the targets. The same operations as the reference's, on equal operands. -/
theorem agg1 (h30 : W (dr main_v30) = val_main_v30 x0 x3) (h3 : W (dr main_v3) = val_main_v3 x1)
    (h6 : W (dr main_v6) = val_main_v6 x1) (h29 : W (dr main_v29) = val_main_v29 x1) :
    after hostOps1 W (dr main_v43) = val_main_v43 x0 x1 x3 := by
  dsimp only [hostOps1]
  after_results_simp
  rw [h30, h3, h6, h29]
  rfl

/-- The first bias as a `[1, 128]` row: reshaped here, broadcast along axis 1 in the reference. -/
theorem bias1 (h4 : W (dr main_arg4) = x4) : after hostOps1 W (dr main_v44) = val_main_v44 x4 := by
  dsimp only [hostOps1]
  after_results
  rw [h4]
  exact Cert.BlockMath.reshapeRow_eq_bcastInDim (by decide) x4 _ _

set_option maxHeartbeats 4000000 in
/-- The second layer's aggregation (mean head). -/
theorem agg2 (h46 : W (dr main_v46) = val_main_v48 x0 x1 x3 x4 x5) (h3 : W (dr main_v3) = val_main_v3 x1)
    (h6 : W (dr main_v6) = val_main_v6 x1) (h29 : W (dr main_v29) = val_main_v29 x1) :
    after hostOps3 W (dr main_v59) = val_main_v61 x0 x1 x3 x4 x5 := by
  dsimp only [hostOps3]
  after_results_simp
  rw [h46, h3, h6, h29]
  rfl

theorem bias2 (h6 : W (dr main_arg6) = x6) : after hostOps3 W (dr main_v60) = val_main_v62 x6 := by
  dsimp only [hostOps3]
  after_results
  rw [h6]
  exact Cert.BlockMath.reshapeRow_eq_bcastInDim (by decide) x6 _ _

set_option maxHeartbeats 4000000 in
/-- The second layer's aggregation (log-variance head). -/
theorem agg3 (h62 : W (dr main_v62) = val_main_v65 x0 x1 x3 x4 x7) (h3 : W (dr main_v3) = val_main_v3 x1)
    (h6 : W (dr main_v6) = val_main_v6 x1) (h29 : W (dr main_v29) = val_main_v29 x1) :
    after hostOps5 W (dr main_v75) = val_main_v78 x0 x1 x3 x4 x7 := by
  dsimp only [hostOps5]
  after_results_simp
  rw [h62, h3, h6, h29]
  rfl

theorem bias3 (h8 : W (dr main_arg8) = x8) : after hostOps5 W (dr main_v76) = val_main_v79 x8 := by
  dsimp only [hostOps5]
  after_results
  rw [h8]
  exact Cert.BlockMath.reshapeRow_eq_bcastInDim (by decide) x8 _ _

/-- Buffers a later segment reads and the stretch after region 0 does not write. -/
theorem keep1_v3 : after hostOps1 W (dr main_v3) = W (dr main_v3) := by dsimp only [hostOps1]; after_results
theorem keep1_v6 : after hostOps1 W (dr main_v6) = W (dr main_v6) := by dsimp only [hostOps1]; after_results
theorem keep1_v29 : after hostOps1 W (dr main_v29) = W (dr main_v29) := by dsimp only [hostOps1]; after_results
theorem keep1_arg5 : after hostOps1 W (dr main_arg5) = W (dr main_arg5) := by dsimp only [hostOps1]; after_results
theorem keep1_arg6 : after hostOps1 W (dr main_arg6) = W (dr main_arg6) := by dsimp only [hostOps1]; after_results
theorem keep1_arg7 : after hostOps1 W (dr main_arg7) = W (dr main_arg7) := by dsimp only [hostOps1]; after_results
theorem keep1_arg8 : after hostOps1 W (dr main_arg8) = W (dr main_arg8) := by dsimp only [hostOps1]; after_results

/-- The same for the stretch after region 2. -/
theorem keep3_v3 : after hostOps3 W (dr main_v3) = W (dr main_v3) := by dsimp only [hostOps3]; after_results
theorem keep3_v6 : after hostOps3 W (dr main_v6) = W (dr main_v6) := by dsimp only [hostOps3]; after_results
theorem keep3_v29 : after hostOps3 W (dr main_v29) = W (dr main_v29) := by dsimp only [hostOps3]; after_results
theorem keep3_v45 : after hostOps3 W (dr main_v45) = W (dr main_v45) := by dsimp only [hostOps3]; after_results
theorem keep3_arg7 : after hostOps3 W (dr main_arg7) = W (dr main_arg7) := by dsimp only [hostOps3]; after_results
theorem keep3_arg8 : after hostOps3 W (dr main_arg8) = W (dr main_arg8) := by dsimp only [hostOps3]; after_results

/-- And for the stretch after region 4: the first result is already in place. -/
theorem keep5_v61 : after hostOps5 W (dr main_v61) = W (dr main_v61) := by dsimp only [hostOps5]; after_results

end Stretches

/-! ## The boundaries of the run, in order -/

variable (m : (ℓ : Loc nD τ sig) → Buf (Elt Ideal) ℓ) (ρ : Dev nD → PrngReg) (c : Dev nD)

/-- @main's arguments at launch, typed as the reference's stages take them. -/
abbrev X0 : (⟨Cert.ReferenceIdeal.S100000x128, .f32⟩ : BufTy).Contents (Elt Ideal) := m ((c : Thread nD τ).loc main_arg0)
abbrev X1 : (⟨Cert.ReferenceIdeal.S2x800000, .i32⟩ : BufTy).Contents (Elt Ideal) := m ((c : Thread nD τ).loc main_arg1)
abbrev X3 : (⟨Cert.ReferenceIdeal.S128x128, .f32⟩ : BufTy).Contents (Elt Ideal) := m ((c : Thread nD τ).loc main_arg3)
abbrev X4 : (⟨Cert.ReferenceIdeal.S128, .f32⟩ : BufTy).Contents (Elt Ideal) := m ((c : Thread nD τ).loc main_arg4)
abbrev X5 : (⟨Cert.ReferenceIdeal.S128x64, .f32⟩ : BufTy).Contents (Elt Ideal) := m ((c : Thread nD τ).loc main_arg5)
abbrev X6 : (⟨Cert.ReferenceIdeal.S64, .f32⟩ : BufTy).Contents (Elt Ideal) := m ((c : Thread nD τ).loc main_arg6)
abbrev X7 : (⟨Cert.ReferenceIdeal.S128x64, .f32⟩ : BufTy).Contents (Elt Ideal) := m ((c : Thread nD τ).loc main_arg7)
abbrev X8 : (⟨Cert.ReferenceIdeal.S64, .f32⟩ : BufTy).Contents (Elt Ideal) := m ((c : Thread nD τ).loc main_arg8)

/-! ### Entering region 0 (`W3`) -/

theorem l3_v3 : W3 m ρ c (dr main_v3) = val_main_v3 (X1 m c) := pre_v3 (W0 m ρ c)
theorem l3_v6 : W3 m ρ c (dr main_v6) = val_main_v6 (X1 m c) := pre_v6 (W0 m ρ c)
theorem l3_v29 : W3 m ρ c (dr main_v29) = val_main_v29 (X1 m c) := pre_v29 (W0 m ρ c)
theorem l3_a0 : W3 m ρ c (dr main_arg0) = X0 m c := pre_arg0 (W0 m ρ c)
theorem l3_a3 : W3 m ρ c (dr main_arg3) = X3 m c := pre_arg3 (W0 m ρ c)
theorem l3_a4 : W3 m ρ c (dr main_arg4) = X4 m c := pre_arg4 (W0 m ρ c)
theorem l3_a5 : W3 m ρ c (dr main_arg5) = X5 m c := pre_arg5 (W0 m ρ c)
theorem l3_a6 : W3 m ρ c (dr main_arg6) = X6 m c := pre_arg6 (W0 m ρ c)
theorem l3_a7 : W3 m ρ c (dr main_arg7) = X7 m c := pre_arg7 (W0 m ρ c)
theorem l3_a8 : W3 m ρ c (dr main_arg8) = X8 m c := pre_arg8 (W0 m ρ c)

/-! ### Leaving region 0 (`W4`): the first product -/

theorem l4_v30 : W4 m ρ c (dr main_v30) = val_main_v30 (X0 m c) (X3 m c) :=
  (W4_arr m ρ c 2).trans ((Cert.KernelIdeal.Region0.final (V3 m ρ) c).trans
    (congrArg₂ (Host.dotGeneral Cert.ReferenceIdeal.dot_S100000x128_S128x128_S100000x128_1_0_0_1_n_n none) (l3_a0 m ρ c) (l3_a3 m ρ c)))
theorem l4_v3 : W4 m ρ c (dr main_v3) = val_main_v3 (X1 m c) := (W4_of_ne m ρ c main_v3 (by decide)).trans (l3_v3 m ρ c)
theorem l4_v6 : W4 m ρ c (dr main_v6) = val_main_v6 (X1 m c) := (W4_of_ne m ρ c main_v6 (by decide)).trans (l3_v6 m ρ c)
theorem l4_v29 : W4 m ρ c (dr main_v29) = val_main_v29 (X1 m c) := (W4_of_ne m ρ c main_v29 (by decide)).trans (l3_v29 m ρ c)
theorem l4_a4 : W4 m ρ c (dr main_arg4) = X4 m c := (W4_of_ne m ρ c main_arg4 (by decide)).trans (l3_a4 m ρ c)
theorem l4_a5 : W4 m ρ c (dr main_arg5) = X5 m c := (W4_of_ne m ρ c main_arg5 (by decide)).trans (l3_a5 m ρ c)
theorem l4_a6 : W4 m ρ c (dr main_arg6) = X6 m c := (W4_of_ne m ρ c main_arg6 (by decide)).trans (l3_a6 m ρ c)
theorem l4_a7 : W4 m ρ c (dr main_arg7) = X7 m c := (W4_of_ne m ρ c main_arg7 (by decide)).trans (l3_a7 m ρ c)
theorem l4_a8 : W4 m ρ c (dr main_arg8) = X8 m c := (W4_of_ne m ρ c main_arg8 (by decide)).trans (l3_a8 m ρ c)

/-! ### Entering region 1 (`W5`): the first aggregation and the bias row -/

theorem l5_v43 : W5 m ρ c (dr main_v43) = val_main_v43 (X0 m c) (X1 m c) (X3 m c) :=
  agg1 (W4 m ρ c) _ _ _ (l4_v30 m ρ c) (l4_v3 m ρ c) (l4_v6 m ρ c) (l4_v29 m ρ c)
theorem l5_v44 : W5 m ρ c (dr main_v44) = val_main_v44 (X4 m c) := bias1 (W4 m ρ c) _ (l4_a4 m ρ c)
theorem l5_v3 : W5 m ρ c (dr main_v3) = val_main_v3 (X1 m c) := (keep1_v3 (W4 m ρ c)).trans (l4_v3 m ρ c)
theorem l5_v6 : W5 m ρ c (dr main_v6) = val_main_v6 (X1 m c) := (keep1_v6 (W4 m ρ c)).trans (l4_v6 m ρ c)
theorem l5_v29 : W5 m ρ c (dr main_v29) = val_main_v29 (X1 m c) := (keep1_v29 (W4 m ρ c)).trans (l4_v29 m ρ c)
theorem l5_a5 : W5 m ρ c (dr main_arg5) = X5 m c := (keep1_arg5 (W4 m ρ c)).trans (l4_a5 m ρ c)
theorem l5_a6 : W5 m ρ c (dr main_arg6) = X6 m c := (keep1_arg6 (W4 m ρ c)).trans (l4_a6 m ρ c)
theorem l5_a7 : W5 m ρ c (dr main_arg7) = X7 m c := (keep1_arg7 (W4 m ρ c)).trans (l4_a7 m ρ c)
theorem l5_a8 : W5 m ρ c (dr main_arg8) = X8 m c := (keep1_arg8 (W4 m ρ c)).trans (l4_a8 m ρ c)

/-! ### Leaving region 1 (`W6`): the hidden layer -/

theorem l6_v45 : W6 m ρ c (dr main_v45) = val_main_v47 (X0 m c) (X1 m c) (X3 m c) (X4 m c) :=
  (W6_arr m ρ c 2).trans (Cert.KernelIdeal.Region1.final_of (V5 m ρ) c _ _ (l5_v43 m ρ c) (l5_v44 m ρ c))
theorem l6_v3 : W6 m ρ c (dr main_v3) = val_main_v3 (X1 m c) := (W6_of_ne m ρ c main_v3 (by decide)).trans (l5_v3 m ρ c)
theorem l6_v6 : W6 m ρ c (dr main_v6) = val_main_v6 (X1 m c) := (W6_of_ne m ρ c main_v6 (by decide)).trans (l5_v6 m ρ c)
theorem l6_v29 : W6 m ρ c (dr main_v29) = val_main_v29 (X1 m c) := (W6_of_ne m ρ c main_v29 (by decide)).trans (l5_v29 m ρ c)
theorem l6_a5 : W6 m ρ c (dr main_arg5) = X5 m c := (W6_of_ne m ρ c main_arg5 (by decide)).trans (l5_a5 m ρ c)
theorem l6_a6 : W6 m ρ c (dr main_arg6) = X6 m c := (W6_of_ne m ρ c main_arg6 (by decide)).trans (l5_a6 m ρ c)
theorem l6_a7 : W6 m ρ c (dr main_arg7) = X7 m c := (W6_of_ne m ρ c main_arg7 (by decide)).trans (l5_a7 m ρ c)
theorem l6_a8 : W6 m ρ c (dr main_arg8) = X8 m c := (W6_of_ne m ρ c main_arg8 (by decide)).trans (l5_a8 m ρ c)

/-! ### Leaving region 2 (`W7`): the hidden layer times the mean head's weight -/

theorem l7_v46 : W7 m ρ c (dr main_v46) = val_main_v48 (X0 m c) (X1 m c) (X3 m c) (X4 m c) (X5 m c) :=
  (W7_arr m ρ c 2).trans ((Cert.KernelIdeal.Region2.final (V6 m ρ) c).trans
    (congrArg₂ (Host.dotGeneral Cert.ReferenceIdeal.dot_S100000x128_S128x64_S100000x64_1_0_0_1_n_n none) (l6_v45 m ρ c) (l6_a5 m ρ c)))
theorem l7_v3 : W7 m ρ c (dr main_v3) = val_main_v3 (X1 m c) := (W7_of_ne m ρ c main_v3 (by decide)).trans (l6_v3 m ρ c)
theorem l7_v6 : W7 m ρ c (dr main_v6) = val_main_v6 (X1 m c) := (W7_of_ne m ρ c main_v6 (by decide)).trans (l6_v6 m ρ c)
theorem l7_v29 : W7 m ρ c (dr main_v29) = val_main_v29 (X1 m c) := (W7_of_ne m ρ c main_v29 (by decide)).trans (l6_v29 m ρ c)
theorem l7_v45 : W7 m ρ c (dr main_v45) = val_main_v47 (X0 m c) (X1 m c) (X3 m c) (X4 m c) :=
  (W7_arr m ρ c 0).trans (((dat2 (V6 m ρ) c).arrAt_in 0 rfl _).trans ((A_eq2 (V6 m ρ) c 0).trans (l6_v45 m ρ c)))
theorem l7_a6 : W7 m ρ c (dr main_arg6) = X6 m c := (W7_of_ne m ρ c main_arg6 (by decide)).trans (l6_a6 m ρ c)
theorem l7_a7 : W7 m ρ c (dr main_arg7) = X7 m c := (W7_of_ne m ρ c main_arg7 (by decide)).trans (l6_a7 m ρ c)
theorem l7_a8 : W7 m ρ c (dr main_arg8) = X8 m c := (W7_of_ne m ρ c main_arg8 (by decide)).trans (l6_a8 m ρ c)

/-! ### Entering region 3 (`W8`) -/

theorem l8_v59 : W8 m ρ c (dr main_v59) = val_main_v61 (X0 m c) (X1 m c) (X3 m c) (X4 m c) (X5 m c) :=
  agg2 (W7 m ρ c) _ _ _ _ _ (l7_v46 m ρ c) (l7_v3 m ρ c) (l7_v6 m ρ c) (l7_v29 m ρ c)
theorem l8_v60 : W8 m ρ c (dr main_v60) = val_main_v62 (X6 m c) := bias2 (W7 m ρ c) _ (l7_a6 m ρ c)
theorem l8_v3 : W8 m ρ c (dr main_v3) = val_main_v3 (X1 m c) := (keep3_v3 (W7 m ρ c)).trans (l7_v3 m ρ c)
theorem l8_v6 : W8 m ρ c (dr main_v6) = val_main_v6 (X1 m c) := (keep3_v6 (W7 m ρ c)).trans (l7_v6 m ρ c)
theorem l8_v29 : W8 m ρ c (dr main_v29) = val_main_v29 (X1 m c) := (keep3_v29 (W7 m ρ c)).trans (l7_v29 m ρ c)
theorem l8_v45 : W8 m ρ c (dr main_v45) = val_main_v47 (X0 m c) (X1 m c) (X3 m c) (X4 m c) := (keep3_v45 (W7 m ρ c)).trans (l7_v45 m ρ c)
theorem l8_a7 : W8 m ρ c (dr main_arg7) = X7 m c := (keep3_arg7 (W7 m ρ c)).trans (l7_a7 m ρ c)
theorem l8_a8 : W8 m ρ c (dr main_arg8) = X8 m c := (keep3_arg8 (W7 m ρ c)).trans (l7_a8 m ρ c)

/-! ### Leaving region 3 (`W9`): the first result -/

theorem l9_v61 : W9 m ρ c (dr main_v61) = val_main_v64 (X0 m c) (X1 m c) (X3 m c) (X4 m c) (X5 m c) (X6 m c) :=
  (W9_arr m ρ c 2).trans (Cert.KernelIdeal.Region3.final_of (V8 m ρ) c _ _ (l8_v59 m ρ c) (l8_v60 m ρ c))
theorem l9_v3 : W9 m ρ c (dr main_v3) = val_main_v3 (X1 m c) := (W9_of_ne m ρ c main_v3 (by decide)).trans (l8_v3 m ρ c)
theorem l9_v6 : W9 m ρ c (dr main_v6) = val_main_v6 (X1 m c) := (W9_of_ne m ρ c main_v6 (by decide)).trans (l8_v6 m ρ c)
theorem l9_v29 : W9 m ρ c (dr main_v29) = val_main_v29 (X1 m c) := (W9_of_ne m ρ c main_v29 (by decide)).trans (l8_v29 m ρ c)
theorem l9_v45 : W9 m ρ c (dr main_v45) = val_main_v47 (X0 m c) (X1 m c) (X3 m c) (X4 m c) := (W9_of_ne m ρ c main_v45 (by decide)).trans (l8_v45 m ρ c)
theorem l9_a7 : W9 m ρ c (dr main_arg7) = X7 m c := (W9_of_ne m ρ c main_arg7 (by decide)).trans (l8_a7 m ρ c)
theorem l9_a8 : W9 m ρ c (dr main_arg8) = X8 m c := (W9_of_ne m ρ c main_arg8 (by decide)).trans (l8_a8 m ρ c)

/-! ### Leaving region 4 (`W10`): the hidden layer times the log-variance head's weight -/

theorem l10_v62 : W10 m ρ c (dr main_v62) = val_main_v65 (X0 m c) (X1 m c) (X3 m c) (X4 m c) (X7 m c) :=
  (W10_arr m ρ c 2).trans ((Cert.KernelIdeal.Region4.final (V9 m ρ) c).trans
    (congrArg₂ (Host.dotGeneral Cert.ReferenceIdeal.dot_S100000x128_S128x64_S100000x64_1_0_0_1_n_n none) (l9_v45 m ρ c) (l9_a7 m ρ c)))
theorem l10_v3 : W10 m ρ c (dr main_v3) = val_main_v3 (X1 m c) := (W10_of_ne m ρ c main_v3 (by decide)).trans (l9_v3 m ρ c)
theorem l10_v6 : W10 m ρ c (dr main_v6) = val_main_v6 (X1 m c) := (W10_of_ne m ρ c main_v6 (by decide)).trans (l9_v6 m ρ c)
theorem l10_v29 : W10 m ρ c (dr main_v29) = val_main_v29 (X1 m c) := (W10_of_ne m ρ c main_v29 (by decide)).trans (l9_v29 m ρ c)
theorem l10_v61 : W10 m ρ c (dr main_v61) = val_main_v64 (X0 m c) (X1 m c) (X3 m c) (X4 m c) (X5 m c) (X6 m c) :=
  (W10_of_ne m ρ c main_v61 (by decide)).trans (l9_v61 m ρ c)
theorem l10_a8 : W10 m ρ c (dr main_arg8) = X8 m c := (W10_of_ne m ρ c main_arg8 (by decide)).trans (l9_a8 m ρ c)

/-! ### Entering region 5 (`W11`) -/

theorem l11_v75 : W11 m ρ c (dr main_v75) = val_main_v78 (X0 m c) (X1 m c) (X3 m c) (X4 m c) (X7 m c) :=
  agg3 (W10 m ρ c) _ _ _ _ _ (l10_v62 m ρ c) (l10_v3 m ρ c) (l10_v6 m ρ c) (l10_v29 m ρ c)
theorem l11_v76 : W11 m ρ c (dr main_v76) = val_main_v79 (X8 m c) := bias3 (W10 m ρ c) _ (l10_a8 m ρ c)
theorem l11_v61 : W11 m ρ c (dr main_v61) = val_main_v64 (X0 m c) (X1 m c) (X3 m c) (X4 m c) (X5 m c) (X6 m c) :=
  (keep5_v61 (W10 m ρ c)).trans (l10_v61 m ρ c)

/-! ### The return (`W12`): the two results -/

/-- The first result is the reference's first result, as a function of the launch arguments. -/
theorem out0 : W12 m ρ c (dr main_v61) = val_main_v64 (X0 m c) (X1 m c) (X3 m c) (X4 m c) (X5 m c) (X6 m c) :=
  (W12_of_ne m ρ c main_v61 (by decide)).trans (l11_v61 m ρ c)

/-- The second result is the reference's second result. -/
theorem out1 : W12 m ρ c (dr main_v77) = val_main_v81 (X0 m c) (X1 m c) (X3 m c) (X4 m c) (X7 m c) (X8 m c) :=
  (W12_arr m ρ c 2).trans (Cert.KernelIdeal.Region5.final_of (V11 m ρ) c _ _ (l11_v75 m ρ c) (l11_v76 m ρ c))

end Cert.KernelIdeal.Fold

end
-- ==== Proof.lean ====
/-
  A two-layer graph convolution encoder (a hidden layer of width 128 with a rectifier, then a mean head and a
  log-variance head of width 64) over 100000 nodes and 800000 edges plus self loops, against its plain jnp reference.

  Both programs build the same edge lists and the same symmetric normalisation on the host, and every layer is
  `segment_sum (gather (X · W) src * norm) dst + b`. The kernel computes each `X · W` in a pallas_call of twenty row
  blocks on the matrix unit (operands rounded to bf16 on the way in, which is the identity at the ideal values) and each
  `+ b` (and the rectifier) in a pallas_call of twenty row blocks; the reference computes them with one `dot_general`,
  one broadcast add and one maximum. The gather, the scaling and the scatter-add are the same host operations in both.

  At the ideal values each matrix-product region leaves the whole product of the arrays it is entered with, and each
  bias region the whole broadcast sum (Region0 … Region5); reading the kernel's run boundary by boundary (Fold) gives its
  two results as the reference's own stage functions of the launch arguments, which is what the reference's run gives.
  No law of the extended reals beyond reindexing a finite sum is used, so finiteness of the inputs is never opened.

  The frames: the two kernel programs' are the generated frame certificates; the reference's is its run with the
  results dropped. The ideal pass rewrote nothing, so `preserves` is trivial.
-/
import proofs.«110385_j87505663689257_1_alg».proof.Defs
import proofs.«110385_j87505663689257_1_alg».proof.Proof.Gen.Kernel
import proofs.«110385_j87505663689257_1_alg».proof.Proof.Gen.Kernel.Skeleton
import proofs.«110385_j87505663689257_1_alg».proof.Proof.Gen.Kernel.Launch
import proofs.«110385_j87505663689257_1_alg».proof.Proof.Gen.Kernel.Points
import proofs.«110385_j87505663689257_1_alg».proof.Proof.Gen.Kernel.Frame
import proofs.«110385_j87505663689257_1_alg».proof.Proof.Gen.KernelIdeal
import proofs.«110385_j87505663689257_1_alg».proof.Proof.Gen.KernelIdeal.Skeleton
import proofs.«110385_j87505663689257_1_alg».proof.Proof.Gen.KernelIdeal.Launch
import proofs.«110385_j87505663689257_1_alg».proof.Proof.Gen.KernelIdeal.Points
import proofs.«110385_j87505663689257_1_alg».proof.Proof.Gen.KernelIdeal.Frame
import proofs.«110385_j87505663689257_1_alg».proof.Proof.Gen.ReferenceIdeal
import proofs.«110385_j87505663689257_1_alg».proof.Proof.Gen.Pre_finite_inputs
import proofs.«110385_j87505663689257_1_alg».proof.Proof.KernelRun
import proofs.«110385_j87505663689257_1_alg».proof.Proof.RefRun
import proofs.«110385_j87505663689257_1_alg».proof.Proof.RefRead
import proofs.«110385_j87505663689257_1_alg».proof.Proof.Fold
import Idealize.ShloMosaic.Adequacy
import Idealize.ShloMosaic.Init

noncomputable section

namespace Cert.Proof

open Idealize.ShloMosaic Idealize.SL.Sem

/-- The word-level kernel runs and keeps its arguments: the generated frame certificate. -/
theorem frame_k : Cert.frame_Kernel := fun m ρ _ => Cert.Kernel.Gen.frame m ρ

/-- The idealized kernel runs and keeps its arguments: the generated frame certificate. -/
theorem frame_ki : Cert.frame_KernelIdeal := fun m ρ _ => Cert.KernelIdeal.Gen.frame m ρ

/-- The reference runs and keeps its arguments: its run, the two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- From memories that agree on the arguments both programs end with the same two results: the kernel's run leaves
    the reference's stage functions of ITS launch arguments in its result arrays (`Fold.out0`, `Fold.out1`), the
    reference's run leaves the same functions of its own, and the arguments agree. -/
theorem algebraic : Cert.algebraic_KernelIdeal_ReferenceIdeal := by
  intro m ρ m' ρ' _ hagree
  refine ⟨_, _, Cert.KernelIdeal.GenV.run_vals (F := Ideal) m ρ, ?_⟩
  refine (θ_run Cert.ReferenceIdeal.defs _ _).mono (fun _ h c => ?_) (Cert.ReferenceIdeal.ValueP.run (F := Ideal) m' ρ')
  obtain ⟨h0, h1, hargs⟩ := h c
  obtain ⟨e0, e1, -, e3, e4, e5, e6, e7, e8⟩ := hagree c
  refine ⟨h0.trans ?_, h1.trans ?_, hargs⟩
  · rw [Cert.ReferenceIdeal.ReadP.val_main_v64_eq, e0, e1, e3, e4, e5, e6]
    exact (Cert.KernelIdeal.Fold.out0 m ρ c).symm
  · rw [Cert.ReferenceIdeal.ReadP.val_main_v81_eq, e0, e1, e3, e4, e7, e8]
    exact (Cert.KernelIdeal.Fold.out1 m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
